-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000 .f32) (main_arg3 : FVec F S64x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 91
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x64, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S850000x1, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S1x1, .f32⟩
  | .hbm, ⟨90, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x1, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S64x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S50000x64, .f32⟩
  | 14 => ⟨S50000, .i32⟩
  | 15 => ⟨S850000, .i32⟩
  | 16 => ⟨S850000, .i32⟩
  | 17 => ⟨S_, .f32⟩
  | 18 => ⟨S50000, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x64, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S50000, .i32⟩
  | 76 => ⟨S850000, .i32⟩
  | 77 => ⟨S850000, .i32⟩
  | 78 => ⟨S_, .f32⟩
  | 79 => ⟨S50000, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S850000x1, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x64, .f32⟩
  | 123 => ⟨S850000x64, .f32⟩
  | 124 => ⟨S850000x64, .f32⟩
  | 125 => ⟨S_, .f32⟩
  | 126 => ⟨S50000x64, .f32⟩
  | 127 => ⟨S850000x1, .i32⟩
  | _ => ⟨S50000x64, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x1, .f32⟩
  | 8 => ⟨S1x1, .f32⟩
  | 9 => ⟨S50000x1, .f32⟩
  | 10 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_c_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Spec.lean ====
/-
  The dense steps of the two-layer graph convolution, as functions of whole arrays read index by index on the
  extended reals.  With N = 50000 nodes and D = 64 features:

    mm a w        (i, j) ↦ ∑ k, a (i, k) · w (k, j)                        the feature transform  a · w
    biasRelu a b  (i, j) ↦ max (a (i, j) + b (0, j)) 0                      bias (a row vector) then ReLU
    head a w b    (i, 0) ↦ (∑ k, a (i, k) · w (k, 0)) + b (0, 0)            the final linear layer

  Both programs compute these; they differ only in how the rows are tiled (the kernel works on blocks of 5000 rows)
  and in how the bias row is laid out before it is added.  The sparse aggregation between the dense steps is the same
  sequence of host operations in both programs and is never opened.
-/
import Idealize.ShloMosaic.PureOps.Ideal
import Idealize.ShloMosaic.Lib.ValueIdx

noncomputable section

namespace Cert.Spec

open Idealize.ShloMosaic

abbrev Sx : Shape := ⟨2, ![50000, 64]⟩
abbrev Sw : Shape := ⟨2, ![64, 64]⟩
abbrev Sb : Shape := ⟨2, ![1, 64]⟩
abbrev Sv : Shape := ⟨2, ![64, 1]⟩
abbrev Sc : Shape := ⟨2, ![1, 1]⟩
abbrev So : Shape := ⟨2, ![50000, 1]⟩

/-- A float array of shape `S` at the ideal instance: a function from indices to extended reals. -/
abbrev Arr (S : Shape) := (⟨S, .f32⟩ : BufTy).Contents (Elt Ideal)

/-- Entry `(i₀, k)` of a node-feature matrix: the row of `i`, column `k`. -/
abbrev rowAt (i : Sx.Idx) (k : Fin 64) : Sx.Idx := fun a => match a with
  | ⟨0, _⟩ => ⟨(i 0).val, (i 0).isLt⟩
  | ⟨1, _⟩ => ⟨k.val, k.isLt⟩
/-- Entry `(k, i₁)` of a weight matrix: row `k`, the column of `i`. -/
abbrev colAt (i : Sx.Idx) (k : Fin 64) : Sw.Idx := fun a => match a with
  | ⟨0, _⟩ => ⟨k.val, k.isLt⟩
  | ⟨1, _⟩ => ⟨(i 1).val, (i 1).isLt⟩

/-- The feature transform `a · w`. -/
def mm (a : Arr Sx) (w : Arr Sw) : Arr Sx := fun i => ∑ k : Fin 64, a (rowAt i k) * w (colAt i k)

/-- The bias row's entry under column `i₁`. -/
abbrev biasAt (i : Sx.Idx) : Sb.Idx := fun a => match a with
  | ⟨0, _⟩ => ⟨0, Nat.one_pos⟩
  | ⟨1, _⟩ => ⟨(i 1).val, (i 1).isLt⟩

/-- Add the bias row to every row, then clamp below at zero. -/
def biasRelu (a : Arr Sx) (b : Arr Sb) : Arr Sx :=
  fun i => FloatOps.maximumf (F := Ideal) (φ := .f32) (FloatOps.addf (F := Ideal) (φ := .f32) (a i) (b (biasAt i)))
    (FloatOps.ofBits (F := Ideal) .f32 0x00000000#32)

abbrev rowAt1 (i : So.Idx) (k : Fin 64) : Sx.Idx := fun a => match a with
  | ⟨0, _⟩ => ⟨(i 0).val, (i 0).isLt⟩
  | ⟨1, _⟩ => ⟨k.val, k.isLt⟩
abbrev colAt1 (i : So.Idx) (k : Fin 64) : Sv.Idx := fun a => match a with
  | ⟨0, _⟩ => ⟨k.val, k.isLt⟩
  | ⟨1, _⟩ => ⟨(i 1).val, (i 1).isLt⟩
abbrev cAt (_i : So.Idx) : Sc.Idx := fun a => match a with
  | ⟨0, _⟩ => ⟨0, Nat.one_pos⟩
  | ⟨1, _⟩ => ⟨0, Nat.one_pos⟩

/-- The final linear layer: one output column, plus the scalar bias. -/
def head (a : Arr Sx) (w : Arr Sv) (b : Arr Sc) : Arr So :=
  fun i => FloatOps.addf (F := Ideal) (φ := .f32) (∑ k : Fin 64, a (rowAt1 i k) * w (colAt1 i k)) (b (cAt i))

end Cert.Spec

end
-- ==== Proof.RefSpec.lean ====
/-
  The reference program's result, stage by stage, is the composition of the dense steps (`Cert.Spec`) with the sparse
  aggregation between them.  The aggregation `agg h` — gather the rows of `h` at the edges' sources, scale by the
  symmetric normalisation, scatter-add into the edges' targets — is kept as ONE function of `h`: the proof never reads it
  at an index.  The reference computes the normalisation twice (once per layer) from the same edge arrays by the same
  operations; the two copies are the same function.
-/
import proofs.«149499_j47115791237145_1_alg».proof.Proof.Gen.ReferenceIdeal.Read
import proofs.«149499_j47115791237145_1_alg».proof.Proof.Spec

noncomputable section

namespace Cert.ReferenceIdeal.Hand

open Cert.ReferenceIdeal Cert.ReferenceIdeal.Read Idealize.ShloMosaic Idealize.ShloMosaic.TcCoe

/-- The sparse aggregation of layer 1, as a function of the transformed features `h`: the reference's own operations
    (stages 33 to 45 of its program) with the feature matrix left as a variable. -/
def agg (h : (⟨S50000x64, .f32⟩ : BufTy).Contents (Elt Ideal)) (x1 : (⟨S2x800000, .i32⟩ : BufTy).Contents (Elt Ideal))
    (x2 : (⟨S800000, .f32⟩ : BufTy).Contents (Elt Ideal)) : (⟨S50000x64, .f32⟩ : BufTy).Contents (Elt Ideal) :=
  Host.scatterAdd (F := Ideal) (φ := .f32) scatter_S50000x64_S850000x1_S850000x64_1_0_0_1 (val_main_v43 (F := Ideal)) (val_main_v44 (F := Ideal) x1)
    (mulf (F := Ideal) (φ := .f32) (val_main_v41 (F := Ideal) x1 x2)
      (Host.gather gather_S50000x64_S850000x1_S850000x64_1_0_n_n_0_1_164 h (val_main_v39 (F := Ideal) x1)))

/-! ### The dense steps, for any operand -/

/-- The host's contraction of a node-feature matrix with a square weight matrix is the feature transform. -/
theorem dot_eq_mm (y : (⟨S50000x64, .f32⟩ : BufTy).Contents (Elt Ideal)) (w : (⟨S64x64, .f32⟩ : BufTy).Contents (Elt Ideal)) :
    Host.dotGeneral (F := Ideal) (φ₁ := .f32) (φ₂ := .f32) dot_S50000x64_S64x64_S50000x64_1_0_0_1_n_n none y w = Cert.Spec.mm y w := by
  funext i
  exact val_main_v4_apply y w i

/-- The host's contraction with the one-column weight matrix, read at an index: the sum over the 64 features. -/
theorem dot_head_apply (y : (⟨S50000x64, .f32⟩ : BufTy).Contents (Elt Ideal)) (w : (⟨S64x1, .f32⟩ : BufTy).Contents (Elt Ideal)) (i : S50000x1.Idx) :
    Host.dotGeneral (F := Ideal) (φ₁ := .f32) (φ₂ := .f32) dot_S50000x64_S64x1_S50000x1_1_0_0_1_n_n none y w i
      = ∑ k : Fin 64, y (lidx_main_v96 i k) * w (ridx_main_v96 i k) := by
  simp only [Host.dotGeneral]
  rw [Ideal.dotGeneral_apply, ← Equiv.sum_comp (ValueIdx.contrEquiv1 dot_S50000x64_S64x1_S50000x1_1_0_0_1_n_n 64 rfl rfl).symm]
  refine Finset.sum_congr rfl fun k _ => ?_
  have hk := ValueIdx.contrEquiv1_symm_val dot_S50000x64_S64x1_S50000x1_1_0_0_1_n_n 64 rfl rfl k
  have el : dot_S50000x64_S64x1_S50000x1_1_0_0_1_n_n.lhsIdx i ((ValueIdx.contrEquiv1 dot_S50000x64_S64x1_S50000x1_1_0_0_1_n_n 64 rfl rfl).symm k) = lidx_main_v96 i k := funext fun a => Fin.ext (by
    match a with
    | ⟨0, _⟩ => exact lhs_main_v96_0 _ _
    | ⟨1, _⟩ => exact (lhs_main_v96_1 _ _).trans hk)
  have er : dot_S50000x64_S64x1_S50000x1_1_0_0_1_n_n.rhsIdx i ((ValueIdx.contrEquiv1 dot_S50000x64_S64x1_S50000x1_1_0_0_1_n_n 64 rfl rfl).symm k) = ridx_main_v96 i k := funext fun a => Fin.ext (by
    match a with
    | ⟨0, _⟩ => exact (rhs_main_v96_0 _ _).trans hk
    | ⟨1, _⟩ => exact rhs_main_v96_1 _ _)
  rw [el, er]

/-- Layer 1: adding the broadcast bias and clamping at the broadcast zero is `biasRelu`. -/
theorem biasRelu_layer1 (a : (⟨S50000x64, .f32⟩ : BufTy).Contents (Elt Ideal)) (x4 : (⟨S64, .f32⟩ : BufTy).Contents (Elt Ideal)) :
    maximumf (F := Ideal) (φ := .f32) (addf (F := Ideal) (φ := .f32) a (val_main_v47 (F := Ideal) x4)) (val_main_call1_v0 (F := Ideal))
      = Cert.Spec.biasRelu a (val_main_v46 (F := Ideal) x4) := by
  funext i
  show FloatOps.maximumf (F := Ideal) (φ := .f32) (FloatOps.addf (F := Ideal) (φ := .f32) (a i) (val_main_v47 (F := Ideal) x4 i)) (val_main_call1_v0 (F := Ideal) i) = _
  rw [val_main_v47_apply, val_main_call1_v0_apply, val_main_call1_cst_apply]
  rfl

/-- Layer 2: the same with the second bias. -/
theorem biasRelu_layer2 (a : (⟨S50000x64, .f32⟩ : BufTy).Contents (Elt Ideal)) (x6 : (⟨S64, .f32⟩ : BufTy).Contents (Elt Ideal)) :
    maximumf (F := Ideal) (φ := .f32) (addf (F := Ideal) (φ := .f32) a (val_main_v93 (F := Ideal) x6)) (val_main_call3_v0 (F := Ideal))
      = Cert.Spec.biasRelu a (val_main_v92 (F := Ideal) x6) := by
  funext i
  show FloatOps.maximumf (F := Ideal) (φ := .f32) (FloatOps.addf (F := Ideal) (φ := .f32) (a i) (val_main_v93 (F := Ideal) x6 i)) (val_main_call3_v0 (F := Ideal) i) = _
  rw [val_main_v93_apply, val_main_call3_v0_apply, val_main_call3_cst_apply]
  rfl

/-- The last layer: the one-column contraction plus the broadcast scalar bias is `head`. -/
theorem head_eq (y : (⟨S50000x64, .f32⟩ : BufTy).Contents (Elt Ideal)) (x7 : (⟨S64x1, .f32⟩ : BufTy).Contents (Elt Ideal))
    (x8 : (⟨S1, .f32⟩ : BufTy).Contents (Elt Ideal)) :
    addf (F := Ideal) (φ := .f32) (Host.dotGeneral (F := Ideal) (φ₁ := .f32) (φ₂ := .f32) dot_S50000x64_S64x1_S50000x1_1_0_0_1_n_n none y x7) (val_main_v98 (F := Ideal) x8)
      = Cert.Spec.head y x7 (val_main_v97 (F := Ideal) x8) := by
  funext i
  show FloatOps.addf (F := Ideal) (φ := .f32) (Host.dotGeneral (F := Ideal) (φ₁ := .f32) (φ₂ := .f32) dot_S50000x64_S64x1_S50000x1_1_0_0_1_n_n none y x7 i) (val_main_v98 (F := Ideal) x8 i) = _
  rw [dot_head_apply, val_main_v98_apply]
  rfl

/-! ### The second copy of the edge normalisation is the first -/
theorem e51 : val_main_v51 (F := Ideal) = val_main_v5 (F := Ideal) := rfl
theorem e54 : val_main_v54 (F := Ideal) = val_main_v8 (F := Ideal) := rfl
theorem e56 : val_main_v56 (F := Ideal) = val_main_v10 (F := Ideal) := rfl
theorem e59 : val_main_v59 (F := Ideal) = val_main_v13 (F := Ideal) := rfl
theorem e63 : val_main_v63 (F := Ideal) = val_main_v17 (F := Ideal) := rfl
theorem e65 : val_main_v65 (F := Ideal) = val_main_v19 (F := Ideal) := rfl
theorem e71 : val_main_v71 (F := Ideal) = val_main_v25 (F := Ideal) := rfl
theorem e73 : val_main_v73 (F := Ideal) = val_main_v27 (F := Ideal) := rfl
theorem e80 : val_main_v80 (F := Ideal) = val_main_v34 (F := Ideal) := rfl
theorem e82 : val_main_v82 (F := Ideal) = val_main_v36 (F := Ideal) := rfl
theorem e89 : val_main_v89 (F := Ideal) = val_main_v43 (F := Ideal) := rfl
theorem ecall2 : val_main_call2_v1 (F := Ideal) = val_main_call0_v1 (F := Ideal) := rfl
theorem e52 (x1 : (⟨S2x800000, .i32⟩ : BufTy).Contents (Elt Ideal)) : val_main_v52 (F := Ideal) x1 = val_main_v6 (F := Ideal) x1 := by
  unfold val_main_v52 val_main_v6
  rw [e51]
theorem e53 (x1 : (⟨S2x800000, .i32⟩ : BufTy).Contents (Elt Ideal)) : val_main_v53 (F := Ideal) x1 = val_main_v7 (F := Ideal) x1 := by
  unfold val_main_v53 val_main_v7
  rw [e51]
theorem e55 (x2 : (⟨S800000, .f32⟩ : BufTy).Contents (Elt Ideal)) : val_main_v55 (F := Ideal) x2 = val_main_v9 (F := Ideal) x2 := by
  unfold val_main_v55 val_main_v9
  rw [e54]
theorem e57 (x1 : (⟨S2x800000, .i32⟩ : BufTy).Contents (Elt Ideal)) : val_main_v57 (F := Ideal) x1 = val_main_v11 (F := Ideal) x1 := by
  unfold val_main_v57 val_main_v11
  rw [e53]
theorem e58 (x1 : (⟨S2x800000, .i32⟩ : BufTy).Contents (Elt Ideal)) (x2 : (⟨S800000, .f32⟩ : BufTy).Contents (Elt Ideal)) : val_main_v58 (F := Ideal) x1 x2 = val_main_v12 (F := Ideal) x1 x2 := by
  unfold val_main_v58 val_main_v12
  rw [e56, e57, e55]
theorem e60 (x1 : (⟨S2x800000, .i32⟩ : BufTy).Contents (Elt Ideal)) (x2 : (⟨S800000, .f32⟩ : BufTy).Contents (Elt Ideal)) : val_main_v60 (F := Ideal) x1 x2 = val_main_v14 (F := Ideal) x1 x2 := by
  unfold val_main_v60 val_main_v14
  rw [e58, e59]
theorem e61 (x1 : (⟨S2x800000, .i32⟩ : BufTy).Contents (Elt Ideal)) (x2 : (⟨S800000, .f32⟩ : BufTy).Contents (Elt Ideal)) : val_main_v61 (F := Ideal) x1 x2 = val_main_v15 (F := Ideal) x1 x2 := by
  unfold val_main_v61 val_main_v15
  rw [e58]
theorem e62 (x1 : (⟨S2x800000, .i32⟩ : BufTy).Contents (Elt Ideal)) (x2 : (⟨S800000, .f32⟩ : BufTy).Contents (Elt Ideal)) : val_main_v62 (F := Ideal) x1 x2 = val_main_v16 (F := Ideal) x1 x2 := by
  unfold val_main_v62 val_main_v16
  rw [e60, e61, ecall2]
theorem e64 (x1 : (⟨S2x800000, .i32⟩ : BufTy).Contents (Elt Ideal)) : val_main_v64 (F := Ideal) x1 = val_main_v18 (F := Ideal) x1 := by
  unfold val_main_v64 val_main_v18
  rw [e52, e63]
theorem e66 (x1 : (⟨S2x800000, .i32⟩ : BufTy).Contents (Elt Ideal)) : val_main_v66 (F := Ideal) x1 = val_main_v20 (F := Ideal) x1 := by
  unfold val_main_v66 val_main_v20
  rw [e52, e65]
theorem e67 (x1 : (⟨S2x800000, .i32⟩ : BufTy).Contents (Elt Ideal)) : val_main_v67 (F := Ideal) x1 = val_main_v21 (F := Ideal) x1 := by
  unfold val_main_v67 val_main_v21
  rw [e64, e66, e52]
theorem e68 (x1 : (⟨S2x800000, .i32⟩ : BufTy).Contents (Elt Ideal)) : val_main_v68 (F := Ideal) x1 = val_main_v22 (F := Ideal) x1 := by
  unfold val_main_v68 val_main_v22
  rw [e67]
theorem e69 (x1 : (⟨S2x800000, .i32⟩ : BufTy).Contents (Elt Ideal)) (x2 : (⟨S800000, .f32⟩ : BufTy).Contents (Elt Ideal)) : val_main_v69 (F := Ideal) x1 x2 = val_main_v23 (F := Ideal) x1 x2 := by
  unfold val_main_v69 val_main_v23
  rw [e62, e68]
theorem e70 (x1 : (⟨S2x800000, .i32⟩ : BufTy).Contents (Elt Ideal)) (x2 : (⟨S800000, .f32⟩ : BufTy).Contents (Elt Ideal)) : val_main_v70 (F := Ideal) x1 x2 = val_main_v24 (F := Ideal) x1 x2 := by
  unfold val_main_v70 val_main_v24
  rw [e69, e55]
theorem e72 (x1 : (⟨S2x800000, .i32⟩ : BufTy).Contents (Elt Ideal)) : val_main_v72 (F := Ideal) x1 = val_main_v26 (F := Ideal) x1 := by
  unfold val_main_v72 val_main_v26
  rw [e53, e71]
theorem e74 (x1 : (⟨S2x800000, .i32⟩ : BufTy).Contents (Elt Ideal)) : val_main_v74 (F := Ideal) x1 = val_main_v28 (F := Ideal) x1 := by
  unfold val_main_v74 val_main_v28
  rw [e53, e73]
theorem e75 (x1 : (⟨S2x800000, .i32⟩ : BufTy).Contents (Elt Ideal)) : val_main_v75 (F := Ideal) x1 = val_main_v29 (F := Ideal) x1 := by
  unfold val_main_v75 val_main_v29
  rw [e72, e74, e53]
theorem e76 (x1 : (⟨S2x800000, .i32⟩ : BufTy).Contents (Elt Ideal)) : val_main_v76 (F := Ideal) x1 = val_main_v30 (F := Ideal) x1 := by
  unfold val_main_v76 val_main_v30
  rw [e75]
theorem e77 (x1 : (⟨S2x800000, .i32⟩ : BufTy).Contents (Elt Ideal)) (x2 : (⟨S800000, .f32⟩ : BufTy).Contents (Elt Ideal)) : val_main_v77 (F := Ideal) x1 x2 = val_main_v31 (F := Ideal) x1 x2 := by
  unfold val_main_v77 val_main_v31
  rw [e62, e76]
theorem e78 (x1 : (⟨S2x800000, .i32⟩ : BufTy).Contents (Elt Ideal)) (x2 : (⟨S800000, .f32⟩ : BufTy).Contents (Elt Ideal)) : val_main_v78 (F := Ideal) x1 x2 = val_main_v32 (F := Ideal) x1 x2 := by
  unfold val_main_v78 val_main_v32
  rw [e70, e77]
theorem e79 (x1 : (⟨S2x800000, .i32⟩ : BufTy).Contents (Elt Ideal)) (x2 : (⟨S800000, .f32⟩ : BufTy).Contents (Elt Ideal)) : val_main_v79 (F := Ideal) x1 x2 = val_main_v33 (F := Ideal) x1 x2 := by
  unfold val_main_v79 val_main_v33
  rw [e78]
theorem e81 (x1 : (⟨S2x800000, .i32⟩ : BufTy).Contents (Elt Ideal)) : val_main_v81 (F := Ideal) x1 = val_main_v35 (F := Ideal) x1 := by
  unfold val_main_v81 val_main_v35
  rw [e52, e80]
theorem e83 (x1 : (⟨S2x800000, .i32⟩ : BufTy).Contents (Elt Ideal)) : val_main_v83 (F := Ideal) x1 = val_main_v37 (F := Ideal) x1 := by
  unfold val_main_v83 val_main_v37
  rw [e52, e82]
theorem e84 (x1 : (⟨S2x800000, .i32⟩ : BufTy).Contents (Elt Ideal)) : val_main_v84 (F := Ideal) x1 = val_main_v38 (F := Ideal) x1 := by
  unfold val_main_v84 val_main_v38
  rw [e81, e83, e52]
theorem e85 (x1 : (⟨S2x800000, .i32⟩ : BufTy).Contents (Elt Ideal)) : val_main_v85 (F := Ideal) x1 = val_main_v39 (F := Ideal) x1 := by
  unfold val_main_v85 val_main_v39
  rw [e84]
theorem e87 (x1 : (⟨S2x800000, .i32⟩ : BufTy).Contents (Elt Ideal)) (x2 : (⟨S800000, .f32⟩ : BufTy).Contents (Elt Ideal)) : val_main_v87 (F := Ideal) x1 x2 = val_main_v41 (F := Ideal) x1 x2 := by
  unfold val_main_v87 val_main_v41
  rw [e79]
theorem e90 (x1 : (⟨S2x800000, .i32⟩ : BufTy).Contents (Elt Ideal)) : val_main_v90 (F := Ideal) x1 = val_main_v44 (F := Ideal) x1 := by
  unfold val_main_v90 val_main_v44
  rw [e53]

/-! ### The stages -/

/-- Stage 45 is the aggregation of the first feature transform. -/
theorem v45_eq (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S64x64, .f32⟩ : BufTy).Contents (Elt Ideal)) :
    val_main_v45 (F := Ideal) x0 x1 x2 x3 = agg (Cert.Spec.mm x0 x3) x1 x2 := by
  unfold val_main_v45 val_main_v42 val_main_v40 val_main_v4 agg
  rw [dot_eq_mm]

/-- Stage 49: the first layer's output. -/
theorem v49_eq (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S64x64, .f32⟩ : BufTy).Contents (Elt Ideal)) (x4 : (⟨S64, .f32⟩ : BufTy).Contents (Elt Ideal)) :
    val_main_v49 (F := Ideal) x0 x1 x2 x3 x4 = Cert.Spec.biasRelu (agg (Cert.Spec.mm x0 x3) x1 x2) (val_main_v46 (F := Ideal) x4) := by
  unfold val_main_v49 val_main_v48
  rw [v45_eq]
  exact biasRelu_layer1 _ x4

/-- Stage 50: the second feature transform. -/
theorem v50_eq (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v50 (F := Ideal) x0 x1 x2 x3 x4 x5
      = Cert.Spec.mm (Cert.Spec.biasRelu (agg (Cert.Spec.mm x0 x3) x1 x2) (val_main_v46 (F := Ideal) x4)) x5 := by
  unfold val_main_v50
  rw [v49_eq]
  exact dot_eq_mm _ x5

/-- Stage 91: the aggregation of the second feature transform, by the second copy of the normalisation. -/
theorem v91_eq (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v91 (F := Ideal) x0 x1 x2 x3 x4 x5 = agg (val_main_v50 (F := Ideal) x0 x1 x2 x3 x4 x5) x1 x2 := by
  unfold val_main_v91 val_main_v88 val_main_v86 agg
  rw [e89, e90, e87, e85]

/-- Stage 95: the second layer's output. -/
theorem v95_eq (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v95 (F := Ideal) x0 x1 x2 x3 x4 x5 x6
      = Cert.Spec.biasRelu
          (agg (Cert.Spec.mm (Cert.Spec.biasRelu (agg (Cert.Spec.mm x0 x3) x1 x2) (val_main_v46 (F := Ideal) x4)) x5) x1 x2)
          (val_main_v92 (F := Ideal) x6) := by
  unfold val_main_v95 val_main_v94
  rw [v91_eq, v50_eq]
  exact biasRelu_layer2 _ x6

/-- The reference's result as the dense steps around the aggregation. -/
theorem val_main_v99_spec (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x1, .f32⟩ : BufTy).Contents (Elt Ideal))
    (x8 : (⟨S1, .f32⟩ : BufTy).Contents (Elt Ideal)) :
    val_main_v99 (F := Ideal) x0 x1 x2 x3 x4 x5 x6 x7 x8
      = Cert.Spec.head
          (Cert.Spec.biasRelu
            (agg (Cert.Spec.mm (Cert.Spec.biasRelu (agg (Cert.Spec.mm x0 x3) x1 x2) (val_main_v46 (F := Ideal) x4)) x5) x1 x2)
            (val_main_v92 (F := Ideal) x6))
          x7 (val_main_v97 (F := Ideal) x8) := by
  unfold val_main_v99 val_main_v96
  rw [v95_eq]
  exact head_eq _ x7 x8

end Cert.ReferenceIdeal.Hand

end
-- ==== Proof.Region0.lean ====
/-
  The first dense step, region 0 of the kernel's program: the node features `x` (50000 × 64) times the weights `W`
  (64 × 64), computed in ten row blocks of 5000 rows.  At grid point `t` the body loads rows 5000·t … 5000·t + 4999 of `x`
  and the whole of `W`, and stores their product (accumulated into zero; the rounding to a narrower float on the way in
  is the identity on the extended reals).  So entry (r, j) of block `t` is ∑ₖ x (5000·t + r, k) · W (k, j), which is entry
  (5000·t + r, j) of the whole product: every block is a restriction of ONE array, `Cert.Spec.mm x W`, the ten blocks tile
  the 50000 rows, and the output array after the region is that product.
-/
import proofs.«149499_j47115791237145_1_alg».proof.Proof.Gen.KernelIdeal.Frame
import proofs.«149499_j47115791237145_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The body's product at an index -/

abbrev dotA := dot_S5000x64_S64x64_S5000x64_1_0_0_1_n_n

theorem lhsA_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsA_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsA_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsA_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Row `j₀` of a block, column `k`. -/
abbrev blkRow (j : S5000x64.Idx) (k : Fin 64) : S5000x64.Idx := fun a => match a with
  | ⟨0, _⟩ => ⟨(j 0).val, (j 0).isLt⟩
  | ⟨1, _⟩ => ⟨k.val, k.isLt⟩
/-- Row `k` of the weights, column `j₁`. -/
abbrev wCol (j : S5000x64.Idx) (k : Fin 64) : S64x64.Idx := fun a => match a with
  | ⟨0, _⟩ => ⟨k.val, k.isLt⟩
  | ⟨1, _⟩ => ⟨(j 1).val, (j 1).isLt⟩

/-- A block of 5000 rows times the weights, into a zero accumulator, read at an index: the sum over the 64 shared
    features. -/
theorem blockProduct_apply (l : FVec Ideal S5000x64 .bf16) (r : FVec Ideal S64x64 .bf16) (j : S5000x64.Idx) :
    matmul (F := Ideal) dot_S5000x64_S64x64_S5000x64_1_0_0_1_n_n none l r (constant S5000x64 .f32 0x00000000#32) j
      = ∑ k : Fin 64, l (blkRow j k) * r (wCol j k) := by
  refine (Ideal.matmul_constant_zero_apply dot_S5000x64_S64x64_S5000x64_1_0_0_1_n_n none l r j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = blkRow j k := funext fun a => Fin.ext (by
    match a with
    | ⟨0, _⟩ => exact lhsA_0 _ _
    | ⟨1, _⟩ => exact (lhsA_1 _ _).trans hk)
  have er : dot_S5000x64_S64x64_S5000x64_1_0_0_1_n_n.rhsIdx j ((ValueIdx.contrEquiv1 dot_S5000x64_S64x64_S5000x64_1_0_0_1_n_n 64 rfl rfl).symm k) = wCol j k := funext fun a => Fin.ext (by
    match a with
    | ⟨0, _⟩ => exact (rhsA_0 _ _).trans hk
    | ⟨1, _⟩ => exact rhsA_1 _ _)
  rw [el, er]

/-- The body's stored value at an index: rounding into the product's input format changes nothing on the extended
    reals, so it is the plain sum of products of the loaded blocks. -/
theorem pay0_apply (x0 : Vec Ideal S5000x64 .f32) (x1 : Vec Ideal S64x64 .f32) (j : S5000x64.Idx) :
    k0_pay1 (F := Ideal) x0 x1 j = ∑ k : Fin 64, x0 (blkRow j k) * x1 (wCol j k) := by
  unfold k0_pay1
  exact blockProduct_apply _ _ j

/-! ## From the blocks to the array -/

variable (V : (c : Dev nD) → (b : Ref sig .tc) → Buf (Elt Ideal) ((c : Thread nD τ).loc b))

theorem zeroOrigin : (![0, 0] : Fin 2 → Nat) = fun _ => 0 := funext fun a => by fin_cases a <;> rfl

/-- The printed index maps, decided over the ten grid points: the feature block moves with the output block down the
    rows, the weights stay at the origin, and the output's block row stays below ten. -/
theorem idxFacts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block row is some point's. -/
theorem idxOnto0 : ∀ q0 : Fin 10, ∃ t : Fin cfg0.N, win0_2.index t = ![q0.val, 0] :=
  (by decide +kernel : ∀ q0 : Fin 10, ∃ t : Fin grid0.N, win0_2.index t = ![q0.val, 0])

/-- The feature block at point `t`, read at (row of `j`, k), is the feature array at (row of the block's `j`, k). -/
theorem readX0 (c : Dev nD) (t : Fin cfg0.N) (j : S5000x64.Idx) (k : Fin 64) :
    iblk0 V c 0 t (blkRow j k) = V c main_arg0 (Cert.Spec.rowAt (((cfg0.win 2).blk t).view.emb j) k) := by
  obtain ⟨e0, e1, e2, e3, e4, e5⟩ := idxFacts0 t
  show V c main_arg0 (((cfg0.win 0).blk t).view.emb (blkRow j k)) = V c main_arg0 (Cert.Spec.rowAt (((cfg0.win 2).blk t).view.emb j) k)
  refine congrArg (V c main_arg0) ?_
  funext a; apply Fin.ext
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 64 + 1 * k.val = k.val; omega

/-- The weights block at any point is the whole weight array. -/
theorem readW0 (c : Dev nD) (t : Fin cfg0.N) (j : S5000x64.Idx) (k : Fin 64) :
    iblk0 V c 1 t (wCol j k) = V c main_arg3 (Cert.Spec.colAt (((cfg0.win 2).blk t).view.emb j) k) := by
  obtain ⟨e0, e1, e2, e3, e4, e5⟩ := idxFacts0 t
  show V c main_arg3 (((cfg0.win 1).blk t).view.emb (wCol j k)) = V c main_arg3 (Cert.Spec.colAt (((cfg0.win 2).blk t).view.emb j) k)
  refine congrArg (V c main_arg3) ?_
  funext a; apply Fin.ext
  match a with
  | ⟨0, _⟩ => show win0_1.index t (0 : Fin 2) * 64 + 1 * k.val = k.val; omega
  | ⟨1, _⟩ => show win0_1.index t (1 : Fin 2) * 64 + 1 * (j 1).val = win0_2.index t (1 : Fin 2) * 64 + 1 * (j 1).val; omega

/-- What point `t` writes back is block `t` of the whole product. -/
theorem flushed0 (c : Dev nD) (t : Fin cfg0.N) :
    (dat0 V c).flushed 2 t = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero zeroOrigin]
  simp only [View.ld_unit_zero (S := S5000x64) zeroOrigin, View.ld_unit_zero (S := S64x64) zeroOrigin]
  funext j
  show k0_pay1 (F := Ideal) (iblk0 V c 0 t) (iblk0 V c 1 t) j = Cert.Spec.mm (V c main_arg0) (V c main_arg3) (((cfg0.win 2).blk t).view.emb j)
  refine (pay0_apply (iblk0 V c 0 t) (iblk0 V c 1 t) j).trans ?_
  unfold Cert.Spec.mm
  refine Finset.sum_congr rfl fun k _ => ?_
  rw [readX0 V c t j k, readW0 V c t j k]

/-- An index of the output array is in point `t`'s block iff each coordinate is in the block's range on its axis. -/
theorem memBlk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The ten blocks tile the rows: row `r` lies in block `r / 5000`. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idxOnto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [memBlk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After region 0 its output array holds the product of the feature array and the weight array it was entered with. -/
theorem region0_value (c : Dev nD) :
    (dat0 V c).arrAt 2 cfg0.N = Cert.Spec.mm (V c main_arg0) (V c main_arg3) :=
  (dat0 V c).arrAt_eq_of_cover 2 _ (fun t _ => flushed0 V c t) cover0

end Cert.KernelIdeal.Hand

end
-- ==== Proof.Region1.lean ====
/-
  The first bias-and-clamp step, region 1 of the kernel's program: to every row of the aggregated features `a`
  (50000 × 64) add the bias row `b` (laid out 1 × 64), then replace every negative entry by zero.  The work is done in
  ten row blocks of 5000 rows.  At grid point `t` the body loads rows 5000·t … 5000·t + 4999 of `a` and the whole of `b`,
  stretches `b` down the 5000 rows, adds, and takes the entrywise maximum with the zero block.  So entry (r, j) of block
  `t` is max (a (5000·t + r, j) + b (0, j)) 0, which is entry (5000·t + r, j) of ONE array, `Cert.Spec.biasRelu a b`: every
  block is a restriction of it, the ten blocks tile the 50000 rows, and the output array after the region is that array.
-/
import proofs.«149499_j47115791237145_1_alg».proof.Proof.Gen.KernelIdeal.Frame
import proofs.«149499_j47115791237145_1_alg».proof.Proof.Spec
import proofs.«149499_j47115791237145_1_alg».proof.Proof.Region0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The body's value at an index -/

/-- The bias row's entry above column `j₁` of a block. -/
abbrev biasCol1 (j : S5000x64.Idx) : S1x64.Idx := fun a => match a with
  | ⟨0, _⟩ => ⟨0, Nat.one_pos⟩
  | ⟨1, _⟩ => ⟨(j 1).val, (j 1).isLt⟩

/-- The bias row stretched down the 5000 rows of a block, read at an index: the row's entry above that column. -/
theorem stretchBias1_apply (b : Vec Ideal S1x64 .f32) (j : S5000x64.Idx) :
    broadcastTo S5000x64 b broadcasts_S1x64_S5000x64 j = b (biasCol1 j) :=
  broadcastTo_apply b broadcasts_S1x64_S5000x64 j (biasCol1 j) (fun a => match a with
    | ⟨0, _⟩ => by show 0 = if (1 : Nat) = 1 then 0 else (j _).val; rw [if_pos rfl]
    | ⟨1, _⟩ => by show (j 1).val = if (64 : Nat) = 1 then 0 else (j _).val; rw [if_neg (by decide)]; rfl)

/-- Add a bias row to a block of 5000 rows and clamp below at zero, read at an index: the casts to the same shape change
    nothing, the stretched bias row is read above the column, and sum and maximum are entrywise. -/
theorem pay1_apply (x : Vec Ideal S5000x64 .f32) (b : Vec Ideal S1x64 .f32) (j : S5000x64.Idx) :
    k1_pay1 (F := Ideal) x b j
      = FloatOps.maximumf (F := Ideal) (φ := .f32) (FloatOps.addf (F := Ideal) (φ := .f32) (x j) (b (biasCol1 j)))
          (FloatOps.ofBits (F := Ideal) .f32 0x00000000#32) := by
  unfold k1_pay1
  rw [shapeCast_self, shapeCast_self]
  show FloatOps.maximumf (F := Ideal) (φ := .f32)
      (FloatOps.addf (F := Ideal) (φ := .f32) (x j) (broadcastTo S5000x64 b broadcasts_S1x64_S5000x64 j)) _ = _
  rw [stretchBias1_apply]
  rfl

/-! ## From the blocks to the array -/

variable (V : (c : Dev nD) → (b : Ref sig .tc) → Buf (Elt Ideal) ((c : Thread nD τ).loc b))

/-- The printed index maps, decided over the ten grid points: the feature block moves with the output block down the
    rows, the bias row stays at the origin, and the output's block row stays below ten. -/
theorem idxFacts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every block row is some point's. -/
theorem idxOnto1 : ∀ q0 : Fin 10, ∃ t : Fin cfg1.N, win1_2.index t = ![q0.val, 0] :=
  (by decide +kernel : ∀ q0 : Fin 10, ∃ t : Fin grid1.N, win1_2.index t = ![q0.val, 0])

/-- The feature block at point `t`, read at `j`, is the feature array at the block's `j`. -/
theorem readAgg1 (c : Dev nD) (t : Fin cfg1.N) (j : S5000x64.Idx) :
    iblk1 V c 0 t j = V c main_v45 (((cfg1.win 2).blk t).view.emb j) := by
  obtain ⟨e0, e1, e2, e3, e4, e5⟩ := idxFacts1 t
  show V c main_v45 (((cfg1.win 0).blk t).view.emb j) = V c main_v45 (((cfg1.win 2).blk t).view.emb j)
  refine congrArg (V c main_v45) ?_
  funext a; apply Fin.ext
  match a with
  | ⟨0, _⟩ => show win1_0.index t (0 : Fin 2) * 5000 + 1 * (j 0).val = win1_2.index t (0 : Fin 2) * 5000 + 1 * (j 0).val; omega
  | ⟨1, _⟩ => show win1_0.index t (1 : Fin 2) * 64 + 1 * (j 1).val = win1_2.index t (1 : Fin 2) * 64 + 1 * (j 1).val; omega

/-- The bias block at any point is the whole bias row. -/
theorem readBias1 (c : Dev nD) (t : Fin cfg1.N) (j : S5000x64.Idx) :
    iblk1 V c 1 t (biasCol1 j) = V c main_v46 (Cert.Spec.biasAt (((cfg1.win 2).blk t).view.emb j)) := by
  obtain ⟨e0, e1, e2, e3, e4, e5⟩ := idxFacts1 t
  show V c main_v46 (((cfg1.win 1).blk t).view.emb (biasCol1 j)) = V c main_v46 (Cert.Spec.biasAt (((cfg1.win 2).blk t).view.emb j))
  refine congrArg (V c main_v46) ?_
  funext a; apply Fin.ext
  match a with
  | ⟨0, _⟩ => show win1_1.index t (0 : Fin 2) * 1 + 1 * 0 = 0; omega
  | ⟨1, _⟩ => show win1_1.index t (1 : Fin 2) * 64 + 1 * (j 1).val = win1_2.index t (1 : Fin 2) * 64 + 1 * (j 1).val; omega

/-- What point `t` writes back is block `t` of the whole biased, clamped array. -/
theorem flushed1 (c : Dev nD) (t : Fin cfg1.N) :
    (dat1 V c).flushed 2 t = ((cfg1.win 2).blk t).view.read (Elt Ideal) (Cert.Spec.biasRelu (V c main_v45) (V c main_v46)) := by
  show (cfg1.win 2).cut (grid1.coords t) ((dat1 V c).after 2 t) = _
  rw [after1_2]
  unfold out1_2
  rw [View.canon_unit_zero zeroOrigin]
  simp only [View.ld_unit_zero (S := S5000x64) zeroOrigin, View.ld_unit_zero (S := S1x64) zeroOrigin]
  funext j
  show k1_pay1 (F := Ideal) (iblk1 V c 0 t) (iblk1 V c 1 t) j = Cert.Spec.biasRelu (V c main_v45) (V c main_v46) (((cfg1.win 2).blk t).view.emb j)
  refine (pay1_apply (iblk1 V c 0 t) (iblk1 V c 1 t) j).trans ?_
  unfold Cert.Spec.biasRelu
  rw [readAgg1 V c t j, readBias1 V c t j]

/-- An index of the output array is in point `t`'s block iff each coordinate is in the block's range on its axis. -/
theorem memBlk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- The ten blocks tile the rows: row `r` lies in block `r / 5000`. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idxOnto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [memBlk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After region 1 its output array holds the aggregated features it was entered with, plus the bias row on every row,
    clamped below at zero. -/
theorem region1_value (c : Dev nD) :
    (dat1 V c).arrAt 2 cfg1.N = Cert.Spec.biasRelu (V c main_v45) (V c main_v46) :=
  (dat1 V c).arrAt_eq_of_cover 2 _ (fun t _ => flushed1 V c t) cover1

end Cert.KernelIdeal.Hand

end
-- ==== Proof.Region2.lean ====
/-
  The second dense step, region 2 of the kernel's program: the first layer's activations `h` (50000 × 64, the output of
  the bias-and-ReLU step before it) times the second layer's weights `W₂` (64 × 64), computed in ten row blocks of 5000
  rows.  A block is 5000 consecutive rows of `h`, all 64 columns: at grid point `t` the body loads rows
  5000·t … 5000·t + 4999 of `h` and the whole of `W₂`, reshapes the loaded block to the shape it already has (the
  identity), rounds both to the product's input format (the identity on the extended reals), and stores their product
  accumulated into zero.  Entry (r, j) of block `t` is therefore ∑ₖ h (5000·t + r, k) · W₂ (k, j): it depends on ONE row
  of `h`, row 5000·t + r, and on column j of `W₂`, and it is entry (5000·t + r, j) of the whole product `h · W₂`.  So
  every block is a restriction of one array, `Cert.Spec.mm h W₂`.  The blocks tile the array because the output block of
  point `t` sits at block row `t`, block column 0, the ten points give the ten block rows 0 … 9, and row `r` of the
  array lies in block row `r / 5000` (and every column in the single block column): each entry is written, and what is
  written there is the product's entry.
-/
import proofs.«149499_j47115791237145_1_alg».proof.Proof.Gen.KernelIdeal.Frame
import proofs.«149499_j47115791237145_1_alg».proof.Proof.Spec
import proofs.«149499_j47115791237145_1_alg».proof.Proof.Region0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The body's product at an index -/

/-- The body's stored value at an index: reshaping the loaded block to its own shape and rounding into the product's
    input format change nothing on the extended reals, so it is the plain sum of products of the loaded blocks. -/
theorem pay2_apply (x0 : Vec Ideal S5000x64 .f32) (x1 : Vec Ideal S64x64 .f32) (j : S5000x64.Idx) :
    k2_pay1 (F := Ideal) x0 x1 j = ∑ k : Fin 64, x0 (blkRow j k) * x1 (wCol j k) := by
  unfold k2_pay1
  refine (blockProduct_apply _ _ j).trans ?_
  refine Finset.sum_congr rfl fun k _ => ?_
  rw [shapeCast_self]
  rfl

/-! ## From the blocks to the array -/

variable (V : (c : Dev nD) → (b : Ref sig .tc) → Buf (Elt Ideal) ((c : Thread nD τ).loc b))

/-- The printed index maps, decided over the ten grid points: the activation block moves with the output block down the
    rows, the weights stay at the origin, and the output's block row stays below ten. -/
theorem idxFacts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every block row is some point's. -/
theorem idxOnto2 : ∀ q0 : Fin 10, ∃ t : Fin cfg2.N, win2_2.index t = ![q0.val, 0] :=
  (by decide +kernel : ∀ q0 : Fin 10, ∃ t : Fin grid2.N, win2_2.index t = ![q0.val, 0])

/-- The activation block at point `t`, read at (row of `j`, k), is the activation array at (row of the block's `j`, k). -/
theorem readH2 (c : Dev nD) (t : Fin cfg2.N) (j : S5000x64.Idx) (k : Fin 64) :
    iblk2 V c 0 t (blkRow j k) = V c main_v47 (Cert.Spec.rowAt (((cfg2.win 2).blk t).view.emb j) k) := by
  obtain ⟨e0, e1, e2, e3, e4, e5⟩ := idxFacts2 t
  show V c main_v47 (((cfg2.win 0).blk t).view.emb (blkRow j k)) = V c main_v47 (Cert.Spec.rowAt (((cfg2.win 2).blk t).view.emb j) k)
  refine congrArg (V c main_v47) ?_
  funext a; apply Fin.ext
  match a with
  | ⟨0, _⟩ => show win2_0.index t (0 : Fin 2) * 5000 + 1 * (j 0).val = win2_2.index t (0 : Fin 2) * 5000 + 1 * (j 0).val; omega
  | ⟨1, _⟩ => show win2_0.index t (1 : Fin 2) * 64 + 1 * k.val = k.val; omega

/-- The weights block at any point is the whole second-layer weight array. -/
theorem readW2 (c : Dev nD) (t : Fin cfg2.N) (j : S5000x64.Idx) (k : Fin 64) :
    iblk2 V c 1 t (wCol j k) = V c main_arg5 (Cert.Spec.colAt (((cfg2.win 2).blk t).view.emb j) k) := by
  obtain ⟨e0, e1, e2, e3, e4, e5⟩ := idxFacts2 t
  show V c main_arg5 (((cfg2.win 1).blk t).view.emb (wCol j k)) = V c main_arg5 (Cert.Spec.colAt (((cfg2.win 2).blk t).view.emb j) k)
  refine congrArg (V c main_arg5) ?_
  funext a; apply Fin.ext
  match a with
  | ⟨0, _⟩ => show win2_1.index t (0 : Fin 2) * 64 + 1 * k.val = k.val; omega
  | ⟨1, _⟩ => show win2_1.index t (1 : Fin 2) * 64 + 1 * (j 1).val = win2_2.index t (1 : Fin 2) * 64 + 1 * (j 1).val; omega

/-- What point `t` writes back is block `t` of the whole product. -/
theorem flushed2 (c : Dev nD) (t : Fin cfg2.N) :
    (dat2 V c).flushed 2 t = ((cfg2.win 2).blk t).view.read (Elt Ideal) (Cert.Spec.mm (V c main_v47) (V c main_arg5)) := by
  show (cfg2.win 2).cut (grid2.coords t) ((dat2 V c).after 2 t) = _
  rw [after2_2]
  unfold out2_2
  rw [View.canon_unit_zero zeroOrigin]
  simp only [View.ld_unit_zero (S := S5000x64) zeroOrigin, View.ld_unit_zero (S := S64x64) zeroOrigin]
  funext j
  show k2_pay1 (F := Ideal) (iblk2 V c 0 t) (iblk2 V c 1 t) j = Cert.Spec.mm (V c main_v47) (V c main_arg5) (((cfg2.win 2).blk t).view.emb j)
  refine (pay2_apply (iblk2 V c 0 t) (iblk2 V c 1 t) j).trans ?_
  unfold Cert.Spec.mm
  refine Finset.sum_congr rfl fun k _ => ?_
  rw [readH2 V c t j k, readW2 V c t j k]

/-- An index of the output array is in point `t`'s block iff each coordinate is in the block's range on its axis. -/
theorem memBlk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- The ten blocks tile the rows: row `r` lies in block `r / 5000`. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idxOnto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [memBlk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After region 2 its output array holds the product of the activation array and the second-layer weight array it was
    entered with. -/
theorem region2_value (c : Dev nD) :
    (dat2 V c).arrAt 2 cfg2.N = Cert.Spec.mm (V c main_v47) (V c main_arg5) :=
  (dat2 V c).arrAt_eq_of_cover 2 _ (fun t _ => flushed2 V c t) cover2

end Cert.KernelIdeal.Hand

end
-- ==== Proof.Region3.lean ====
/-
  The second bias-and-clamp step, region 3 of the kernel's program: the second layer's aggregated features `a`
  (50000 × 64) get the second bias row `b` (laid out 1 × 64) added to every row, and every negative entry is replaced by
  zero.  The body is the same function of its two loaded blocks as region 1's, again run on ten row blocks of 5000 rows:
  at grid point `t` it loads rows 5000·t … 5000·t + 4999 of `a` and the whole of `b` and stores
  (r, j) ↦ max (a (5000·t + r, j) + b (0, j)) 0.  That is entry (5000·t + r, j) of ONE array, `Cert.Spec.biasRelu a b`:
  every block is a restriction of it, the ten blocks tile the 50000 rows, and the output array after the region is that
  array.
-/
import proofs.«149499_j47115791237145_1_alg».proof.Proof.Gen.KernelIdeal.Frame
import proofs.«149499_j47115791237145_1_alg».proof.Proof.Spec
import proofs.«149499_j47115791237145_1_alg».proof.Proof.Region0
import proofs.«149499_j47115791237145_1_alg».proof.Proof.Region1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The body's value at an index -/

/-- Region 3's body stores the same function of its loaded blocks as region 1's: the two printed bodies are the same
    sequence of operations. -/
theorem pay3_eq_pay1 (x : Vec Ideal S5000x64 .f32) (b : Vec Ideal S1x64 .f32) :
    k3_pay1 (F := Ideal) x b = k1_pay1 (F := Ideal) x b := rfl

/-- The body's stored value at an index: the block's entry plus the bias row's entry above its column, clamped below at
    zero. -/
theorem pay3_apply (x : Vec Ideal S5000x64 .f32) (b : Vec Ideal S1x64 .f32) (j : S5000x64.Idx) :
    k3_pay1 (F := Ideal) x b j
      = FloatOps.maximumf (F := Ideal) (φ := .f32) (FloatOps.addf (F := Ideal) (φ := .f32) (x j) (b (biasCol1 j)))
          (FloatOps.ofBits (F := Ideal) .f32 0x00000000#32) :=
  (congrFun (pay3_eq_pay1 x b) j).trans (pay1_apply x b j)

/-! ## From the blocks to the array -/

variable (V : (c : Dev nD) → (b : Ref sig .tc) → Buf (Elt Ideal) ((c : Thread nD τ).loc b))

/-- The printed index maps, decided over the ten grid points: the feature block moves with the output block down the
    rows, the bias row stays at the origin, and the output's block row stays below ten. -/
theorem idxFacts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every block row is some point's. -/
theorem idxOnto3 : ∀ q0 : Fin 10, ∃ t : Fin cfg3.N, win3_2.index t = ![q0.val, 0] :=
  (by decide +kernel : ∀ q0 : Fin 10, ∃ t : Fin grid3.N, win3_2.index t = ![q0.val, 0])

/-- The feature block at point `t`, read at `j`, is the feature array at the block's `j`. -/
theorem readAgg3 (c : Dev nD) (t : Fin cfg3.N) (j : S5000x64.Idx) :
    iblk3 V c 0 t j = V c main_v61 (((cfg3.win 2).blk t).view.emb j) := by
  obtain ⟨e0, e1, e2, e3, e4, e5⟩ := idxFacts3 t
  show V c main_v61 (((cfg3.win 0).blk t).view.emb j) = V c main_v61 (((cfg3.win 2).blk t).view.emb j)
  refine congrArg (V c main_v61) ?_
  funext a; apply Fin.ext
  match a with
  | ⟨0, _⟩ => show win3_0.index t (0 : Fin 2) * 5000 + 1 * (j 0).val = win3_2.index t (0 : Fin 2) * 5000 + 1 * (j 0).val; omega
  | ⟨1, _⟩ => show win3_0.index t (1 : Fin 2) * 64 + 1 * (j 1).val = win3_2.index t (1 : Fin 2) * 64 + 1 * (j 1).val; omega

/-- The bias block at any point is the whole bias row. -/
theorem readBias3 (c : Dev nD) (t : Fin cfg3.N) (j : S5000x64.Idx) :
    iblk3 V c 1 t (biasCol1 j) = V c main_v62 (Cert.Spec.biasAt (((cfg3.win 2).blk t).view.emb j)) := by
  obtain ⟨e0, e1, e2, e3, e4, e5⟩ := idxFacts3 t
  show V c main_v62 (((cfg3.win 1).blk t).view.emb (biasCol1 j)) = V c main_v62 (Cert.Spec.biasAt (((cfg3.win 2).blk t).view.emb j))
  refine congrArg (V c main_v62) ?_
  funext a; apply Fin.ext
  match a with
  | ⟨0, _⟩ => show win3_1.index t (0 : Fin 2) * 1 + 1 * 0 = 0; omega
  | ⟨1, _⟩ => show win3_1.index t (1 : Fin 2) * 64 + 1 * (j 1).val = win3_2.index t (1 : Fin 2) * 64 + 1 * (j 1).val; omega

/-- What point `t` writes back is block `t` of the whole biased, clamped array. -/
theorem flushed3 (c : Dev nD) (t : Fin cfg3.N) :
    (dat3 V c).flushed 2 t = ((cfg3.win 2).blk t).view.read (Elt Ideal) (Cert.Spec.biasRelu (V c main_v61) (V c main_v62)) := by
  show (cfg3.win 2).cut (grid3.coords t) ((dat3 V c).after 2 t) = _
  rw [after3_2]
  unfold out3_2
  rw [View.canon_unit_zero zeroOrigin]
  simp only [View.ld_unit_zero (S := S5000x64) zeroOrigin, View.ld_unit_zero (S := S1x64) zeroOrigin]
  funext j
  show k3_pay1 (F := Ideal) (iblk3 V c 0 t) (iblk3 V c 1 t) j = Cert.Spec.biasRelu (V c main_v61) (V c main_v62) (((cfg3.win 2).blk t).view.emb j)
  refine (pay3_apply (iblk3 V c 0 t) (iblk3 V c 1 t) j).trans ?_
  unfold Cert.Spec.biasRelu
  rw [readAgg3 V c t j, readBias3 V c t j]

/-- An index of the output array is in point `t`'s block iff each coordinate is in the block's range on its axis. -/
theorem memBlk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- The ten blocks tile the rows: row `r` lies in block `r / 5000`. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idxOnto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [memBlk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After region 3 its output array holds the second layer's aggregated features it was entered with, plus the second
    bias row on every row, clamped below at zero. -/
theorem region3_value (c : Dev nD) :
    (dat3 V c).arrAt 2 cfg3.N = Cert.Spec.biasRelu (V c main_v61) (V c main_v62) :=
  (dat3 V c).arrAt_eq_of_cover 2 _ (fun t _ => flushed3 V c t) cover3

end Cert.KernelIdeal.Hand

end
-- ==== Proof.Region4.lean ====
/-
  The final linear layer, region 4 of the kernel's program: the second layer's node features `h` (50000 × 64) times the
  single output column `w` (64 × 1), plus the scalar bias `b` (laid out 1 × 1), computed in ten row blocks of 5000 rows.
  At grid point `t` the body loads rows 5000·t … 5000·t + 4999 of `h`, the whole of `w` and the one entry of `b`, forms
  the product of the block with `w` (accumulated into zero; the rounding to a narrower float on the way in is the
  identity on the extended reals), spreads `b` over the 5000 rows and adds.  So entry (r, 0) of block `t` is
  (∑ₖ h (5000·t + r, k) · w (k, 0)) + b (0, 0), which is entry (5000·t + r, 0) of ONE array, `Cert.Spec.head h w b`:
  every block is a restriction of it, the ten blocks tile the 50000 rows, and the output array after the region is it.
-/
import proofs.«149499_j47115791237145_1_alg».proof.Proof.Gen.KernelIdeal.Frame
import proofs.«149499_j47115791237145_1_alg».proof.Proof.Spec
import proofs.«149499_j47115791237145_1_alg».proof.Proof.Region0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The body's value at an index -/

/-- The product's left index keeps the output's row. -/
theorem lhsH4_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
/-- The product's left index runs its column over the shared features. -/
theorem lhsH4_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
/-- The product's right index runs its row over the shared features. -/
theorem rhsH4_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
/-- The product's right index keeps the output's (only) column. -/
theorem rhsH4_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- Row `j₀` of a feature block, column `k`. -/
abbrev featRow4 (j : S5000x1.Idx) (k : Fin 64) : S5000x64.Idx := fun a => match a with
  | ⟨0, _⟩ => ⟨(j 0).val, (j 0).isLt⟩
  | ⟨1, _⟩ => ⟨k.val, k.isLt⟩
/-- Row `k` of the output column of weights, column `j₁` (there is only one). -/
abbrev headCol4 (j : S5000x1.Idx) (k : Fin 64) : S64x1.Idx := fun a => match a with
  | ⟨0, _⟩ => ⟨k.val, k.isLt⟩
  | ⟨1, _⟩ => ⟨(j 1).val, (j 1).isLt⟩
/-- The one entry of the bias. -/
abbrev biasEntry4 : S1x1.Idx := fun a => match a with
  | ⟨0, _⟩ => ⟨0, Nat.one_pos⟩
  | ⟨1, _⟩ => ⟨0, Nat.one_pos⟩

/-- A block of 5000 rows times the output column, into a zero accumulator, read at an index: the sum over the 64 shared
    features. -/
theorem headProduct4_apply (l : FVec Ideal S5000x64 .bf16) (r : FVec Ideal S64x1 .bf16) (j : S5000x1.Idx) :
    matmul (F := Ideal) dot_S5000x64_S64x1_S5000x1_1_0_0_1_n_n none l r (constant S5000x1 .f32 0x00000000#32) j
      = ∑ k : Fin 64, l (featRow4 j k) * r (headCol4 j k) := by
  refine (Ideal.matmul_constant_zero_apply dot_S5000x64_S64x1_S5000x1_1_0_0_1_n_n none l r j).trans ?_
  rw [← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx j ((ValueIdx.contrEquiv1 dot_S5000x64_S64x1_S5000x1_1_0_0_1_n_n 64 rfl rfl).symm k) = featRow4 j k := funext fun a => Fin.ext (by
    match a with
    | ⟨0, _⟩ => exact lhsH4_0 _ _
    | ⟨1, _⟩ => exact (lhsH4_1 _ _).trans hk)
  have er : dot_S5000x64_S64x1_S5000x1_1_0_0_1_n_n.rhsIdx j ((ValueIdx.contrEquiv1 dot_S5000x64_S64x1_S5000x1_1_0_0_1_n_n 64 rfl rfl).symm k) = headCol4 j k := funext fun a => Fin.ext (by
    match a with
    | ⟨0, _⟩ => exact (rhsH4_0 _ _).trans hk
    | ⟨1, _⟩ => exact rhsH4_1 _ _)
  rw [el, er]

/-- The bias spread over the 5000 rows, read at any index, is its one entry. -/
theorem biasSpread4_apply (x2 : Vec Ideal S1x1 .f32) (j : S5000x1.Idx) :
    broadcastTo S5000x1 (shapeCast S1x1 x2 shapeCasts_S1x1_S1x1) broadcasts_S1x1_S5000x1 j = x2 biasEntry4 := by
  rw [shapeCast_self]
  exact broadcastTo_apply x2 broadcasts_S1x1_S5000x1 j biasEntry4 (fun a => match a with
    | ⟨0, _⟩ => by show 0 = if (1 : Nat) = 1 then 0 else (j 0).val; rw [if_pos rfl]
    | ⟨1, _⟩ => by show 0 = if (1 : Nat) = 1 then 0 else (j 1).val; rw [if_pos rfl])

/-- The body's stored value at an index: rounding into the product's input format changes nothing on the extended
    reals, so it is the plain sum of products of the loaded blocks, plus the bias entry. -/
theorem pay4_apply (x0 : Vec Ideal S5000x64 .f32) (x1 : Vec Ideal S64x1 .f32) (x2 : Vec Ideal S1x1 .f32) (j : S5000x1.Idx) :
    k4_pay1 (F := Ideal) x0 x1 x2 j
      = FloatOps.addf (F := Ideal) (φ := .f32) (∑ k : Fin 64, x0 (featRow4 j k) * x1 (headCol4 j k)) (x2 biasEntry4) := by
  unfold k4_pay1
  have hm : matmul (F := Ideal) dot_S5000x64_S64x1_S5000x1_1_0_0_1_n_n none
      (truncf .bf16 (shapeCast S5000x64 x0 shapeCasts_S5000x64_S5000x64) bitsLt_bf16_f32) (truncf .bf16 x1 bitsLt_bf16_f32)
      (constant S5000x1 .f32 0x00000000#32) j = ∑ k : Fin 64, x0 (featRow4 j k) * x1 (headCol4 j k) :=
    (headProduct4_apply (truncf .bf16 (shapeCast S5000x64 x0 shapeCasts_S5000x64_S5000x64) bitsLt_bf16_f32) (truncf .bf16 x1 bitsLt_bf16_f32) j).trans (by
      rw [shapeCast_self]
      exact Finset.sum_congr rfl fun k _ => rfl)
  exact congrArg₂ (FloatOps.addf (F := Ideal) (φ := .f32)) hm (biasSpread4_apply x2 j)

/-! ## From the blocks to the array -/

variable (V : (c : Dev nD) → (b : Ref sig .tc) → Buf (Elt Ideal) ((c : Thread nD τ).loc b))

/-- The printed index maps, decided over the ten grid points: the feature block moves with the output block down the
    rows, the weights and the bias stay at the origin, and the output's block row stays below ten. -/
theorem idxFacts4 : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) ≤ 9 :=
  (by decide +kernel : ∀ t : Fin grid4.N, _)

/-- Every block row is some point's. -/
theorem idxOnto4 : ∀ q0 : Fin 10, ∃ t : Fin cfg4.N, win4_3.index t = ![q0.val, 0] :=
  (by decide +kernel : ∀ q0 : Fin 10, ∃ t : Fin grid4.N, win4_3.index t = ![q0.val, 0])

/-- The feature block at point `t`, read at (row of `j`, k), is the feature array at (row of the block's `j`, k). -/
theorem readH4 (c : Dev nD) (t : Fin cfg4.N) (j : S5000x1.Idx) (k : Fin 64) :
    iblk4 V c 0 t (featRow4 j k) = V c main_v63 (Cert.Spec.rowAt1 (((cfg4.win 3).blk t).view.emb j) k) := by
  obtain ⟨e0, e1, e2, e3, e4, e5, e6, e7⟩ := idxFacts4 t
  show V c main_v63 (((cfg4.win 0).blk t).view.emb (featRow4 j k)) = V c main_v63 (Cert.Spec.rowAt1 (((cfg4.win 3).blk t).view.emb j) k)
  refine congrArg (V c main_v63) ?_
  funext a; apply Fin.ext
  match a with
  | ⟨0, _⟩ => show win4_0.index t (0 : Fin 2) * 5000 + 1 * (j 0).val = win4_3.index t (0 : Fin 2) * 5000 + 1 * (j 0).val; omega
  | ⟨1, _⟩ => show win4_0.index t (1 : Fin 2) * 64 + 1 * k.val = k.val; omega

/-- The weights block at any point is the whole output column of weights. -/
theorem readW4 (c : Dev nD) (t : Fin cfg4.N) (j : S5000x1.Idx) (k : Fin 64) :
    iblk4 V c 1 t (headCol4 j k) = V c main_arg7 (Cert.Spec.colAt1 (((cfg4.win 3).blk t).view.emb j) k) := by
  obtain ⟨e0, e1, e2, e3, e4, e5, e6, e7⟩ := idxFacts4 t
  show V c main_arg7 (((cfg4.win 1).blk t).view.emb (headCol4 j k)) = V c main_arg7 (Cert.Spec.colAt1 (((cfg4.win 3).blk t).view.emb j) k)
  refine congrArg (V c main_arg7) ?_
  funext a; apply Fin.ext
  match a with
  | ⟨0, _⟩ => show win4_1.index t (0 : Fin 2) * 64 + 1 * k.val = k.val; omega
  | ⟨1, _⟩ => show win4_1.index t (1 : Fin 2) * 1 + 1 * (j 1).val = win4_3.index t (1 : Fin 2) * 1 + 1 * (j 1).val; omega

/-- The bias block at any point is the whole (one-entry) bias. -/
theorem readB4 (c : Dev nD) (t : Fin cfg4.N) (j : S5000x1.Idx) :
    iblk4 V c 2 t biasEntry4 = V c main_v64 (Cert.Spec.cAt (((cfg4.win 3).blk t).view.emb j)) := by
  obtain ⟨e0, e1, e2, e3, e4, e5, e6, e7⟩ := idxFacts4 t
  show V c main_v64 (((cfg4.win 2).blk t).view.emb biasEntry4) = V c main_v64 (Cert.Spec.cAt (((cfg4.win 3).blk t).view.emb j))
  refine congrArg (V c main_v64) ?_
  funext a; apply Fin.ext
  match a with
  | ⟨0, _⟩ => show win4_2.index t (0 : Fin 2) * 1 + 1 * 0 = 0; omega
  | ⟨1, _⟩ => show win4_2.index t (1 : Fin 2) * 1 + 1 * 0 = 0; omega

/-- What point `t` writes back is block `t` of the whole layer's output. -/
theorem flushed4 (c : Dev nD) (t : Fin cfg4.N) :
    (dat4 V c).flushed 3 t = ((cfg4.win 3).blk t).view.read (Elt Ideal) (Cert.Spec.head (V c main_v63) (V c main_arg7) (V c main_v64)) := by
  show (cfg4.win 3).cut (grid4.coords t) ((dat4 V c).after 3 t) = _
  rw [after4_3]
  unfold out4_3
  rw [View.canon_unit_zero zeroOrigin]
  simp only [View.ld_unit_zero (S := S5000x64) zeroOrigin, View.ld_unit_zero (S := S64x1) zeroOrigin, View.ld_unit_zero (S := S1x1) zeroOrigin]
  funext j
  show k4_pay1 (F := Ideal) (iblk4 V c 0 t) (iblk4 V c 1 t) (iblk4 V c 2 t) j = Cert.Spec.head (V c main_v63) (V c main_arg7) (V c main_v64) (((cfg4.win 3).blk t).view.emb j)
  refine (pay4_apply (iblk4 V c 0 t) (iblk4 V c 1 t) (iblk4 V c 2 t) j).trans ?_
  unfold Cert.Spec.head
  refine congrArg₂ (FloatOps.addf (F := Ideal) (φ := .f32)) (Finset.sum_congr rfl fun k _ => ?_) (readB4 V c t j)
  rw [readH4 V c t j k, readW4 V c t j k]

/-- An index of the output array is in point `t`'s block iff each coordinate is in the block's range on its axis. -/
theorem memBlk4 (t : Fin cfg4.N) (i : S50000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v65).slice (win4_3.rect t)).set ↔ _
  rw [View.set_slice_whole, Rect.mem_set_unit]
  exact Iff.rfl

/-- The ten blocks tile the rows: row `r` lies in block `r / 5000`. -/
theorem cover4 (i : S50000x1.Idx) :
    ∃ t : Fin cfg4.N, (cfg4.win 3).flush t = true ∧ i ∈ ((cfg4.win 3).blk t).view.set := by
  have hi0 : (i 0).val < 50000 := (i 0).isLt
  have hi1 : (i 1).val < 1 := (i 1).isLt
  obtain ⟨t, ht⟩ := idxOnto4 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [memBlk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 1 ≤ (i 1).val ∧ (i 1).val < win4_3.index t (1 : Fin 2) * 1 + 1; omega

/-- After region 4 its output array holds the final linear layer of the feature array, the output column of weights and
    the bias it was entered with. -/
theorem region4_value (c : Dev nD) :
    (dat4 V c).arrAt 3 cfg4.N = Cert.Spec.head (V c main_v63) (V c main_arg7) (V c main_v64) :=
  (dat4 V c).arrAt_eq_of_cover 3 _ (fun t _ => flushed4 V c t) cover4

end Cert.KernelIdeal.Hand

end
-- ==== Proof.HostNorm.lean ====
/-
  The kernel program's host operations before its first region compute, from the edge list and the edge weights, the
  edges with self-loops appended (sources, targets, weights), the weighted in-degree of every node by a scatter-add,
  its inverse square root where the degree is positive (zero elsewhere), and the symmetric normalisation of every edge.
  The reference computes the same arrays by the same operations.  Each lemma here follows one stretch of those
  operations from an ARBITRARY valuation of the buffers: given what the stretch's inputs hold, its output buffer holds
  the reference's corresponding stage.  The operations are never read at an index; the two sides are the same terms.
-/
import proofs.«149499_j47115791237145_1_alg».proof.Proof.Gen.KernelIdeal.Frame
import proofs.«149499_j47115791237145_1_alg».proof.Proof.RefSpec
import Idealize.ShloMosaic.Lib.StableHlo.Run
import Idealize.ShloMosaic.Lib.Pipeline.Value

set_option maxRecDepth 16384
set_option maxHeartbeats 2000000

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read (val_main_v6 val_main_v7 val_main_v9 val_main_v14 val_main_v15 val_main_cst_2 val_main_v16 val_main_v32 val_main_v46 val_main_v92 val_main_v97)

variable (Wg : Valuation τ sig (Elt Ideal))
variable (x1 : (⟨S2x800000, .i32⟩ : BufTy).Contents (Elt Ideal)) (x2 : (⟨S800000, .f32⟩ : BufTy).Contents (Elt Ideal))

/-! ## The first stretch: self-loops appended, degrees, their inverse square roots -/

/-- Edge sources with the self-loops appended. -/
theorem srcOfEdges (h1 : Wg (Proc.devRef .tc main_arg1) = x1) :
    StableHlo.after hostOps0 Wg (Proc.devRef .tc main_v5) = val_main_v6 (F := Ideal) x1 := by
  dsimp only [hostOps0]; after_results; rw [h1]; rfl

/-- Edge targets with the self-loops appended. -/
theorem dstOfEdges (h1 : Wg (Proc.devRef .tc main_arg1) = x1) :
    StableHlo.after hostOps0 Wg (Proc.devRef .tc main_v6) = val_main_v7 (F := Ideal) x1 := by
  dsimp only [hostOps0]; after_results; rw [h1]; rfl

/-- Edge weights with weight one appended for every self-loop. -/
theorem weightOfEdges (h2 : Wg (Proc.devRef .tc main_arg2) = x2) :
    StableHlo.after hostOps0 Wg (Proc.devRef .tc main_v8) = val_main_v9 (F := Ideal) x2 := by
  dsimp only [hostOps0]; after_results; rw [h2]; rfl

/-- Which nodes have positive degree. -/
theorem degPositive (h1 : Wg (Proc.devRef .tc main_arg1) = x1) (h2 : Wg (Proc.devRef .tc main_arg2) = x2) :
    StableHlo.after hostOps0 Wg (Proc.devRef .tc main_v13) = val_main_v14 (F := Ideal) x1 x2 := by
  dsimp only [hostOps0]; after_results; rw [h1, h2]; rfl

/-- The inverse square root of every degree. -/
theorem degRsqrt (h1 : Wg (Proc.devRef .tc main_arg1) = x1) (h2 : Wg (Proc.devRef .tc main_arg2) = x2) :
    StableHlo.after hostOps0 Wg (Proc.devRef .tc main_v14) = val_main_v15 (F := Ideal) x1 x2 := by
  dsimp only [hostOps0]; after_results; rw [h1, h2]; rfl

/-- The zero that replaces the inverse square root where the degree is not positive. -/
theorem zeroFill :
    StableHlo.after hostOps0 Wg (Proc.devRef .tc main_cst_2) = val_main_cst_2 (F := Ideal) := by
  dsimp only [hostOps0]; after_results; rfl

/-- The first stretch writes no argument of the program. -/
theorem hostOps0_keeps_args :
    StableHlo.after hostOps0 Wg (Proc.devRef .tc main_arg0) = Wg (Proc.devRef .tc main_arg0)
    ∧ StableHlo.after hostOps0 Wg (Proc.devRef .tc main_arg3) = Wg (Proc.devRef .tc main_arg3)
    ∧ StableHlo.after hostOps0 Wg (Proc.devRef .tc main_arg4) = Wg (Proc.devRef .tc main_arg4)
    ∧ StableHlo.after hostOps0 Wg (Proc.devRef .tc main_arg5) = Wg (Proc.devRef .tc main_arg5)
    ∧ StableHlo.after hostOps0 Wg (Proc.devRef .tc main_arg6) = Wg (Proc.devRef .tc main_arg6)
    ∧ StableHlo.after hostOps0 Wg (Proc.devRef .tc main_arg7) = Wg (Proc.devRef .tc main_arg7)
    ∧ StableHlo.after hostOps0 Wg (Proc.devRef .tc main_arg8) = Wg (Proc.devRef .tc main_arg8) := by
  dsimp only [hostOps0]
  refine ⟨?_, ?_, ?_, ?_, ?_, ?_, ?_⟩ <;> after_results

/-! ## The second stretch: the select between the inverse square root and zero -/

/-! The select is written in a function of its own, whose operands reach it through transports along equalities of
    buffer types that hold by computation.  A transport depends only on the buffer's type and is the identity; they are
    removed one at a time, whichever buffer of that type they were written for. -/

theorem maskAsIs (p : (⟨S50000, .i1⟩ : BufTy).Contents (Elt Ideal)) :
    (TRef.of (sig := sig) (T := ⟨S50000, .i1⟩) main_v13).ofBuf (Val := Elt Ideal) p = p := rfl
theorem vectorInAsIs (q : (⟨S50000, .f32⟩ : BufTy).Contents (Elt Ideal)) :
    (TRef.of (sig := sig) (T := ⟨S50000, .f32⟩) main_v14).ofBuf (Val := Elt Ideal) q = q := rfl
theorem vectorOutAsIs (v : (⟨S50000, .f32⟩ : BufTy).Contents (Elt Ideal)) :
    (TRef.of (sig := sig) (T := ⟨S50000, .f32⟩) main_v15).toBuf (Val := Elt Ideal) v = v := rfl
theorem scalarInAsIs (z : (⟨S_, .f32⟩ : BufTy).Contents (Elt Ideal)) :
    (TRef.of (sig := sig) (T := ⟨S_, .f32⟩) main_cst_2).ofBuf (Val := Elt Ideal) z = z := rfl
theorem scalarOutAsIs (z : (⟨S_, .f32⟩ : BufTy).Contents (Elt Ideal)) :
    (TRef.of (sig := sig) (T := ⟨S_, .f32⟩) main_call0_v0).toBuf (Val := Elt Ideal) z = z := rfl

/-- The inverse square root of the degree where it is positive, zero elsewhere. -/
theorem degInvSqrt (hc : Wg (Proc.devRef .tc main_cst_2) = val_main_cst_2 (F := Ideal))
    (h13 : Wg (Proc.devRef .tc main_v13) = val_main_v14 (F := Ideal) x1 x2)
    (h14 : Wg (Proc.devRef .tc main_v14) = val_main_v15 (F := Ideal) x1 x2) :
    StableHlo.after hostOps0_1 Wg (Proc.devRef .tc main_v15) = val_main_v16 (F := Ideal) x1 x2 := by
  dsimp only [hostOps0_1]; after_results; rw [hc, h13, h14]
  unfold Cert.ReferenceIdeal.Read.val_main_v16 Cert.ReferenceIdeal.Read.val_main_call0_v1 Cert.ReferenceIdeal.Read.val_main_call0_v0
  -- the three inputs are kept opaque: what is left to compare is the select itself
  generalize val_main_v14 (F := Ideal) x1 x2 = p
  generalize val_main_v15 (F := Ideal) x1 x2 = q
  generalize val_main_cst_2 (F := Ideal) = z
  repeat (first | rw [scalarInAsIs] | rw [scalarOutAsIs] | rw [vectorInAsIs] | rw [vectorOutAsIs] | rw [maskAsIs])

/-- The second stretch writes none of the edge arrays and no argument. -/
theorem hostOps0_1_keeps :
    StableHlo.after hostOps0_1 Wg (Proc.devRef .tc main_v5) = Wg (Proc.devRef .tc main_v5)
    ∧ StableHlo.after hostOps0_1 Wg (Proc.devRef .tc main_v6) = Wg (Proc.devRef .tc main_v6)
    ∧ StableHlo.after hostOps0_1 Wg (Proc.devRef .tc main_v8) = Wg (Proc.devRef .tc main_v8)
    ∧ StableHlo.after hostOps0_1 Wg (Proc.devRef .tc main_arg0) = Wg (Proc.devRef .tc main_arg0)
    ∧ StableHlo.after hostOps0_1 Wg (Proc.devRef .tc main_arg3) = Wg (Proc.devRef .tc main_arg3)
    ∧ StableHlo.after hostOps0_1 Wg (Proc.devRef .tc main_arg4) = Wg (Proc.devRef .tc main_arg4)
    ∧ StableHlo.after hostOps0_1 Wg (Proc.devRef .tc main_arg5) = Wg (Proc.devRef .tc main_arg5)
    ∧ StableHlo.after hostOps0_1 Wg (Proc.devRef .tc main_arg6) = Wg (Proc.devRef .tc main_arg6)
    ∧ StableHlo.after hostOps0_1 Wg (Proc.devRef .tc main_arg7) = Wg (Proc.devRef .tc main_arg7)
    ∧ StableHlo.after hostOps0_1 Wg (Proc.devRef .tc main_arg8) = Wg (Proc.devRef .tc main_arg8) := by
  dsimp only [hostOps0_1]
  refine ⟨?_, ?_, ?_, ?_, ?_, ?_, ?_, ?_, ?_, ?_⟩ <;> after_results

/-! ## The third stretch: the normalisation of every edge -/

/-- The symmetric normalisation: inverse square root of the source's degree, times the weight, times that of the
    target's degree. -/
theorem edgeNorm (h5 : Wg (Proc.devRef .tc main_v5) = val_main_v6 (F := Ideal) x1)
    (h6 : Wg (Proc.devRef .tc main_v6) = val_main_v7 (F := Ideal) x1)
    (h8 : Wg (Proc.devRef .tc main_v8) = val_main_v9 (F := Ideal) x2)
    (h15 : Wg (Proc.devRef .tc main_v15) = val_main_v16 (F := Ideal) x1 x2) :
    StableHlo.after hostOps0_2 Wg (Proc.devRef .tc main_v31) = val_main_v32 (F := Ideal) x1 x2 := by
  dsimp only [hostOps0_2]; after_results; rw [h5, h6, h8, h15]; rfl

/-- The third stretch writes neither the sources, nor the targets, nor an argument. -/
theorem hostOps0_2_keeps :
    StableHlo.after hostOps0_2 Wg (Proc.devRef .tc main_v5) = Wg (Proc.devRef .tc main_v5)
    ∧ StableHlo.after hostOps0_2 Wg (Proc.devRef .tc main_v6) = Wg (Proc.devRef .tc main_v6)
    ∧ StableHlo.after hostOps0_2 Wg (Proc.devRef .tc main_arg0) = Wg (Proc.devRef .tc main_arg0)
    ∧ StableHlo.after hostOps0_2 Wg (Proc.devRef .tc main_arg3) = Wg (Proc.devRef .tc main_arg3)
    ∧ StableHlo.after hostOps0_2 Wg (Proc.devRef .tc main_arg4) = Wg (Proc.devRef .tc main_arg4)
    ∧ StableHlo.after hostOps0_2 Wg (Proc.devRef .tc main_arg5) = Wg (Proc.devRef .tc main_arg5)
    ∧ StableHlo.after hostOps0_2 Wg (Proc.devRef .tc main_arg6) = Wg (Proc.devRef .tc main_arg6)
    ∧ StableHlo.after hostOps0_2 Wg (Proc.devRef .tc main_arg7) = Wg (Proc.devRef .tc main_arg7)
    ∧ StableHlo.after hostOps0_2 Wg (Proc.devRef .tc main_arg8) = Wg (Proc.devRef .tc main_arg8) := by
  dsimp only [hostOps0_2]
  refine ⟨?_, ?_, ?_, ?_, ?_, ?_, ?_, ?_, ?_⟩ <;> after_results

end Cert.KernelIdeal.Hand

end
-- ==== Proof.HostAgg.lean ====
/-
  Between its dense regions the kernel program aggregates on the host: it gathers the rows of the transformed features at
  the edges' sources, scales each by its edge's normalisation, and scatter-adds them into the edges' targets; and it lays
  the bias vector out as a row.  The reference does the same aggregation by the same operations
  (`Cert.ReferenceIdeal.Hand.agg`), so given what the stretch's inputs hold its output is that function of the features,
  with nothing read at an index.  The bias is laid out differently — the kernel reshapes the 64 entries into a 1 × 64 row, the
  reference broadcasts them along a new leading axis — but entry (0, j) of either row is entry j of the vector.
-/
import proofs.«149499_j47115791237145_1_alg».proof.Proof.Gen.KernelIdeal.Frame
import proofs.«149499_j47115791237145_1_alg».proof.Proof.RefSpec
import Idealize.ShloMosaic.Lib.StableHlo.Run
import Idealize.ShloMosaic.Lib.Pipeline.Value

set_option maxRecDepth 16384
set_option maxHeartbeats 2000000

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read (val_main_v6 val_main_v7 val_main_v9 val_main_v14 val_main_v15 val_main_cst_2 val_main_v16 val_main_v32 val_main_v46 val_main_v92 val_main_v97)

open Cert.ReferenceIdeal.Hand (agg)

/-! ## A vector as a row, a scalar as a 1 × 1 matrix -/

/-- Reshaping 64 entries into a 1 × 64 row puts entry `j` at (0, j), as broadcasting along a new leading axis does. -/
theorem biasRowLayout (x : (⟨S64, .f32⟩ : BufTy).Contents (Elt Ideal)) :
    shapeCast S1x64 x shapeCasts_S64_S1x64 = val_main_v46 (F := Ideal) x := by
  funext i
  rw [Cert.ReferenceIdeal.Read.val_main_v46_apply]
  refine shapeCast_apply x shapeCasts_S64_S1x64 i (Cert.ReferenceIdeal.Read.idx_main_v46 i) ?_
  rewrite [Shape.rowMajor_val_one, Shape.rowMajor_val_two]
  have h0 : (i 0).val < 1 := (i 0).isLt
  have h1 : (i 1).val < 64 := (i 1).isLt
  show (i 1).val = (i 0).val * 64 + (i 1).val
  omega

/-- The second layer's bias row: the same layout. -/
theorem biasRowLayout2 (x : (⟨S64, .f32⟩ : BufTy).Contents (Elt Ideal)) :
    shapeCast S1x64 x shapeCasts_S64_S1x64 = val_main_v92 (F := Ideal) x := by
  funext i
  rw [Cert.ReferenceIdeal.Read.val_main_v92_apply]
  refine shapeCast_apply x shapeCasts_S64_S1x64 i (Cert.ReferenceIdeal.Read.idx_main_v92 i) ?_
  rewrite [Shape.rowMajor_val_one, Shape.rowMajor_val_two]
  have h0 : (i 0).val < 1 := (i 0).isLt
  have h1 : (i 1).val < 64 := (i 1).isLt
  show (i 1).val = (i 0).val * 64 + (i 1).val
  omega

/-- The one bias entry of the last layer as a 1 × 1 matrix. -/
theorem scalarLayout (x : (⟨S1, .f32⟩ : BufTy).Contents (Elt Ideal)) :
    shapeCast S1x1 x shapeCasts_S1_S1x1 = val_main_v97 (F := Ideal) x := by
  funext i
  rw [Cert.ReferenceIdeal.Read.val_main_v97_apply]
  refine shapeCast_apply x shapeCasts_S1_S1x1 i (Cert.ReferenceIdeal.Read.idx_main_v97 i) ?_
  rewrite [Shape.rowMajor_val_one, Shape.rowMajor_val_two]
  have h0 : (i 0).val < 1 := (i 0).isLt
  have h1 : (i 1).val < 1 := (i 1).isLt
  show 0 = (i 0).val * 1 + (i 1).val
  omega

variable (Wg : Valuation τ sig (Elt Ideal))
variable (x1 : (⟨S2x800000, .i32⟩ : BufTy).Contents (Elt Ideal)) (x2 : (⟨S800000, .f32⟩ : BufTy).Contents (Elt Ideal))
variable (h : (⟨S50000x64, .f32⟩ : BufTy).Contents (Elt Ideal))

/-! ## The stretch between regions 0 and 1 -/

/-- The first layer's aggregation of the transformed features `h`. -/
theorem aggregate1 (h31 : Wg (Proc.devRef .tc main_v31) = val_main_v32 (F := Ideal) x1 x2)
    (h5 : Wg (Proc.devRef .tc main_v5) = val_main_v6 (F := Ideal) x1)
    (h6 : Wg (Proc.devRef .tc main_v6) = val_main_v7 (F := Ideal) x1)
    (h32 : Wg (Proc.devRef .tc main_v32) = h) :
    StableHlo.after hostOps1 Wg (Proc.devRef .tc main_v45) = agg h x1 x2 := by
  dsimp only [hostOps1]; after_results; rw [h31, h5, h6, h32]; rfl

/-- The first layer's bias as a row. -/
theorem biasRow1 (x4 : (⟨S64, .f32⟩ : BufTy).Contents (Elt Ideal)) (h4 : Wg (Proc.devRef .tc main_arg4) = x4) :
    StableHlo.after hostOps1 Wg (Proc.devRef .tc main_v46) = val_main_v46 (F := Ideal) x4 := by
  dsimp only [hostOps1]; after_results; rw [h4]
  exact biasRowLayout x4

/-- This stretch writes neither the edge arrays nor a later argument. -/
theorem hostOps1_keeps :
    StableHlo.after hostOps1 Wg (Proc.devRef .tc main_v5) = Wg (Proc.devRef .tc main_v5)
    ∧ StableHlo.after hostOps1 Wg (Proc.devRef .tc main_v6) = Wg (Proc.devRef .tc main_v6)
    ∧ StableHlo.after hostOps1 Wg (Proc.devRef .tc main_v31) = Wg (Proc.devRef .tc main_v31)
    ∧ StableHlo.after hostOps1 Wg (Proc.devRef .tc main_arg5) = Wg (Proc.devRef .tc main_arg5)
    ∧ StableHlo.after hostOps1 Wg (Proc.devRef .tc main_arg6) = Wg (Proc.devRef .tc main_arg6)
    ∧ StableHlo.after hostOps1 Wg (Proc.devRef .tc main_arg7) = Wg (Proc.devRef .tc main_arg7)
    ∧ StableHlo.after hostOps1 Wg (Proc.devRef .tc main_arg8) = Wg (Proc.devRef .tc main_arg8) := by
  dsimp only [hostOps1]
  refine ⟨?_, ?_, ?_, ?_, ?_, ?_, ?_⟩ <;> after_results

/-! ## The stretch between regions 2 and 3 -/

/-- The second layer's aggregation of the transformed features `h`: the same operations on the same edge arrays. -/
theorem aggregate2 (h31 : Wg (Proc.devRef .tc main_v31) = val_main_v32 (F := Ideal) x1 x2)
    (h5 : Wg (Proc.devRef .tc main_v5) = val_main_v6 (F := Ideal) x1)
    (h6 : Wg (Proc.devRef .tc main_v6) = val_main_v7 (F := Ideal) x1)
    (h48 : Wg (Proc.devRef .tc main_v48) = h) :
    StableHlo.after hostOps3 Wg (Proc.devRef .tc main_v61) = agg h x1 x2 := by
  dsimp only [hostOps3]; after_results; rw [h31, h5, h6, h48]; rfl

/-- The second layer's bias as a row. -/
theorem biasRow2 (x6 : (⟨S64, .f32⟩ : BufTy).Contents (Elt Ideal)) (h6 : Wg (Proc.devRef .tc main_arg6) = x6) :
    StableHlo.after hostOps3 Wg (Proc.devRef .tc main_v62) = val_main_v92 (F := Ideal) x6 := by
  dsimp only [hostOps3]; after_results; rw [h6]
  exact biasRowLayout2 x6

/-- This stretch writes none of the last layer's arguments. -/
theorem hostOps3_keeps :
    StableHlo.after hostOps3 Wg (Proc.devRef .tc main_arg7) = Wg (Proc.devRef .tc main_arg7)
    ∧ StableHlo.after hostOps3 Wg (Proc.devRef .tc main_arg8) = Wg (Proc.devRef .tc main_arg8) := by
  dsimp only [hostOps3]
  refine ⟨?_, ?_⟩ <;> after_results

/-! ## The stretch before region 4 -/

/-- The last layer's bias as a 1 × 1 matrix. -/
theorem biasScalar (x8 : (⟨S1, .f32⟩ : BufTy).Contents (Elt Ideal)) (h8 : Wg (Proc.devRef .tc main_arg8) = x8) :
    StableHlo.after hostOps4 Wg (Proc.devRef .tc main_v64) = val_main_v97 (F := Ideal) x8 := by
  dsimp only [hostOps4]; after_results; rw [h8]
  exact scalarLayout x8

/-- It writes neither the second layer's activations nor the last layer's weights. -/
theorem hostOps4_keeps :
    StableHlo.after hostOps4 Wg (Proc.devRef .tc main_v63) = Wg (Proc.devRef .tc main_v63)
    ∧ StableHlo.after hostOps4 Wg (Proc.devRef .tc main_arg7) = Wg (Proc.devRef .tc main_arg7) := by
  dsimp only [hostOps4]
  refine ⟨?_, ?_⟩ <;> after_results

end Cert.KernelIdeal.Hand

end
-- ==== Proof.KValue.lean ====
/-
  The kernel program's result as a function of its arguments.  The program's buffer contents are followed from the
  launch through its eleven segments — three host stretches, the first product, the aggregation, bias and ReLU, the
  second product, the aggregation again, bias and ReLU, the bias scalar, the final layer — and at the end the result
  buffer holds

      head (biasRelu (agg (mm (biasRelu (agg (mm x W₁)) b₁) W₂)) b₂) W_fc b_fc

  where `mm`, `biasRelu`, `head` are the dense steps read index by index and `agg` is the sparse aggregation, the same
  function in both layers because the edge arrays and their normalisation are computed once and written by nothing
  afterwards.  Each region contributes what its own module proves of its output array; each host stretch what its
  operations make of the buffers it reads; every buffer that a later segment reads is carried unchanged across the
  segments that do not write it.
-/
import proofs.«149499_j47115791237145_1_alg».proof.Proof.Gen.KernelIdeal.Frame
import proofs.«149499_j47115791237145_1_alg».proof.Proof.RefSpec
import proofs.«149499_j47115791237145_1_alg».proof.Proof.Region0
import proofs.«149499_j47115791237145_1_alg».proof.Proof.Region1
import proofs.«149499_j47115791237145_1_alg».proof.Proof.Region2
import proofs.«149499_j47115791237145_1_alg».proof.Proof.Region3
import proofs.«149499_j47115791237145_1_alg».proof.Proof.Region4
import proofs.«149499_j47115791237145_1_alg».proof.Proof.HostNorm
import proofs.«149499_j47115791237145_1_alg».proof.Proof.HostAgg

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read (val_main_v6 val_main_v7 val_main_v9 val_main_v32 val_main_v46 val_main_v92 val_main_v97)
open Cert.ReferenceIdeal.Hand (agg)
open Cert.Spec (mm biasRelu head)

variable (m : (ℓ : Loc nD τ sig) → Buf (Elt Ideal) ℓ) (ρ : Dev nD → PrngReg) (c : Dev nD)

/-- The edge arrays with self-loops, their normalisation, and the untouched arguments, as region 0 finds them. -/
theorem atRegion0 :
    W3 (F := Ideal) m ρ c (Proc.devRef .tc main_v5) = val_main_v6 (F := Ideal) (m ((c : Thread nD τ).loc main_arg1))
    ∧ W3 (F := Ideal) m ρ c (Proc.devRef .tc main_v6) = val_main_v7 (F := Ideal) (m ((c : Thread nD τ).loc main_arg1))
    ∧ W3 (F := Ideal) m ρ c (Proc.devRef .tc main_v31) = val_main_v32 (F := Ideal) (m ((c : Thread nD τ).loc main_arg1)) (m ((c : Thread nD τ).loc main_arg2))
    ∧ W3 (F := Ideal) m ρ c (Proc.devRef .tc main_arg0) = m ((c : Thread nD τ).loc main_arg0)
    ∧ W3 (F := Ideal) m ρ c (Proc.devRef .tc main_arg3) = m ((c : Thread nD τ).loc main_arg3)
    ∧ W3 (F := Ideal) m ρ c (Proc.devRef .tc main_arg4) = m ((c : Thread nD τ).loc main_arg4)
    ∧ W3 (F := Ideal) m ρ c (Proc.devRef .tc main_arg5) = m ((c : Thread nD τ).loc main_arg5)
    ∧ W3 (F := Ideal) m ρ c (Proc.devRef .tc main_arg6) = m ((c : Thread nD τ).loc main_arg6)
    ∧ W3 (F := Ideal) m ρ c (Proc.devRef .tc main_arg7) = m ((c : Thread nD τ).loc main_arg7)
    ∧ W3 (F := Ideal) m ρ c (Proc.devRef .tc main_arg8) = m ((c : Thread nD τ).loc main_arg8) := by
  obtain ⟨a0, a3, a4, a5, a6, a7, a8⟩ := hostOps0_keeps_args (W0 (F := Ideal) m ρ c)
  obtain ⟨b5, b6, b8, b0, b3, b4, b5', b6', b7, b8'⟩ := hostOps0_1_keeps (W1 (F := Ideal) m ρ c)
  obtain ⟨c5, c6, c0, c3, c4, c5', c6', c7, c8⟩ := hostOps0_2_keeps (W2 (F := Ideal) m ρ c)
  have s5 := srcOfEdges (W0 (F := Ideal) m ρ c) (m ((c : Thread nD τ).loc main_arg1)) rfl
  have s6 := dstOfEdges (W0 (F := Ideal) m ρ c) (m ((c : Thread nD τ).loc main_arg1)) rfl
  have s8 := weightOfEdges (W0 (F := Ideal) m ρ c) (m ((c : Thread nD τ).loc main_arg2)) rfl
  have s13 := degPositive (W0 (F := Ideal) m ρ c) (m ((c : Thread nD τ).loc main_arg1)) (m ((c : Thread nD τ).loc main_arg2)) rfl rfl
  have s14 := degRsqrt (W0 (F := Ideal) m ρ c) (m ((c : Thread nD τ).loc main_arg1)) (m ((c : Thread nD τ).loc main_arg2)) rfl rfl
  have sc := zeroFill (W0 (F := Ideal) m ρ c)
  have s15 := degInvSqrt (W1 (F := Ideal) m ρ c) (m ((c : Thread nD τ).loc main_arg1)) (m ((c : Thread nD τ).loc main_arg2)) sc s13 s14
  have s31 := edgeNorm (W2 (F := Ideal) m ρ c) (m ((c : Thread nD τ).loc main_arg1)) (m ((c : Thread nD τ).loc main_arg2))
    (b5.trans s5) (b6.trans s6) (b8.trans s8) s15
  exact ⟨c5.trans (b5.trans s5), c6.trans (b6.trans s6), s31,
    c0.trans (b0.trans a0), c3.trans (b3.trans a3), c4.trans (b4.trans a4), c5'.trans (b5'.trans a5),
    c6'.trans (b6'.trans a6), c7.trans (b7.trans a7), c8.trans (b8'.trans a8)⟩

/-- What region 1 finds: the aggregated first product and the first bias as a row; the edge arrays and the later
    arguments untouched. -/
theorem atRegion1 :
    W5 (F := Ideal) m ρ c (Proc.devRef .tc main_v45)
      = agg (mm (m ((c : Thread nD τ).loc main_arg0)) (m ((c : Thread nD τ).loc main_arg3))) (m ((c : Thread nD τ).loc main_arg1)) (m ((c : Thread nD τ).loc main_arg2))
    ∧ W5 (F := Ideal) m ρ c (Proc.devRef .tc main_v46) = val_main_v46 (F := Ideal) (m ((c : Thread nD τ).loc main_arg4))
    ∧ W5 (F := Ideal) m ρ c (Proc.devRef .tc main_v5) = val_main_v6 (F := Ideal) (m ((c : Thread nD τ).loc main_arg1))
    ∧ W5 (F := Ideal) m ρ c (Proc.devRef .tc main_v6) = val_main_v7 (F := Ideal) (m ((c : Thread nD τ).loc main_arg1))
    ∧ W5 (F := Ideal) m ρ c (Proc.devRef .tc main_v31) = val_main_v32 (F := Ideal) (m ((c : Thread nD τ).loc main_arg1)) (m ((c : Thread nD τ).loc main_arg2))
    ∧ W5 (F := Ideal) m ρ c (Proc.devRef .tc main_arg5) = m ((c : Thread nD τ).loc main_arg5)
    ∧ W5 (F := Ideal) m ρ c (Proc.devRef .tc main_arg6) = m ((c : Thread nD τ).loc main_arg6)
    ∧ W5 (F := Ideal) m ρ c (Proc.devRef .tc main_arg7) = m ((c : Thread nD τ).loc main_arg7)
    ∧ W5 (F := Ideal) m ρ c (Proc.devRef .tc main_arg8) = m ((c : Thread nD τ).loc main_arg8) := by
  obtain ⟨r5, r6, r31, r0, r3, r4, r5', r6', r7, r8⟩ := atRegion0 m ρ c
  -- region 0 writes its output array and nothing else that is read later
  have p32 : W4 (F := Ideal) m ρ c (Proc.devRef .tc main_v32) = mm (m ((c : Thread nD τ).loc main_arg0)) (m ((c : Thread nD τ).loc main_arg3)) :=
    (W4_arr m ρ c 2).trans ((region0_value (V3 (F := Ideal) m ρ) c).trans (congrArg₂ mm r0 r3))
  have p5 := (W4_of_ne (F := Ideal) m ρ c main_v5 (by decide)).trans r5
  have p6 := (W4_of_ne (F := Ideal) m ρ c main_v6 (by decide)).trans r6
  have p31 := (W4_of_ne (F := Ideal) m ρ c main_v31 (by decide)).trans r31
  have p4 := (W4_of_ne (F := Ideal) m ρ c main_arg4 (by decide)).trans r4
  have p5' := (W4_of_ne (F := Ideal) m ρ c main_arg5 (by decide)).trans r5'
  have p6' := (W4_of_ne (F := Ideal) m ρ c main_arg6 (by decide)).trans r6'
  have p7 := (W4_of_ne (F := Ideal) m ρ c main_arg7 (by decide)).trans r7
  have p8 := (W4_of_ne (F := Ideal) m ρ c main_arg8 (by decide)).trans r8
  obtain ⟨d5, d6, d31, d5', d6', d7, d8⟩ := hostOps1_keeps (W4 (F := Ideal) m ρ c)
  exact ⟨aggregate1 (W4 (F := Ideal) m ρ c) _ _ _ p31 p5 p6 p32, biasRow1 (W4 (F := Ideal) m ρ c) _ p4,
    d5.trans p5, d6.trans p6, d31.trans p31, d5'.trans p5', d6'.trans p6', d7.trans p7, d8.trans p8⟩

/-- What region 3 finds: the aggregated second product and the second bias as a row; the last layer's arguments
    untouched. -/
theorem atRegion3 :
    W8 (F := Ideal) m ρ c (Proc.devRef .tc main_v61)
      = agg (mm (biasRelu (agg (mm (m ((c : Thread nD τ).loc main_arg0)) (m ((c : Thread nD τ).loc main_arg3))) (m ((c : Thread nD τ).loc main_arg1)) (m ((c : Thread nD τ).loc main_arg2)))
            (val_main_v46 (F := Ideal) (m ((c : Thread nD τ).loc main_arg4)))) (m ((c : Thread nD τ).loc main_arg5)))
          (m ((c : Thread nD τ).loc main_arg1)) (m ((c : Thread nD τ).loc main_arg2))
    ∧ W8 (F := Ideal) m ρ c (Proc.devRef .tc main_v62) = val_main_v92 (F := Ideal) (m ((c : Thread nD τ).loc main_arg6))
    ∧ W8 (F := Ideal) m ρ c (Proc.devRef .tc main_arg7) = m ((c : Thread nD τ).loc main_arg7)
    ∧ W8 (F := Ideal) m ρ c (Proc.devRef .tc main_arg8) = m ((c : Thread nD τ).loc main_arg8) := by
  obtain ⟨q45, q46, q5, q6, q31, q5', q6', q7, q8⟩ := atRegion1 m ρ c
  -- region 1: bias and ReLU of the first aggregate
  have u47 : W6 (F := Ideal) m ρ c (Proc.devRef .tc main_v47) = biasRelu _ _ :=
    (W6_arr m ρ c 2).trans ((region1_value (V5 (F := Ideal) m ρ) c).trans (congrArg₂ biasRelu q45 q46))
  have u5 := (W6_of_ne (F := Ideal) m ρ c main_v5 (by decide)).trans q5
  have u6 := (W6_of_ne (F := Ideal) m ρ c main_v6 (by decide)).trans q6
  have u31 := (W6_of_ne (F := Ideal) m ρ c main_v31 (by decide)).trans q31
  have u5' := (W6_of_ne (F := Ideal) m ρ c main_arg5 (by decide)).trans q5'
  have u6' := (W6_of_ne (F := Ideal) m ρ c main_arg6 (by decide)).trans q6'
  have u7 := (W6_of_ne (F := Ideal) m ρ c main_arg7 (by decide)).trans q7
  have u8 := (W6_of_ne (F := Ideal) m ρ c main_arg8 (by decide)).trans q8
  -- region 2: the second product
  have v48 : W7 (F := Ideal) m ρ c (Proc.devRef .tc main_v48) = mm _ _ :=
    (W7_arr m ρ c 2).trans ((region2_value (V6 (F := Ideal) m ρ) c).trans (congrArg₂ mm u47 u5'))
  have v5 := (W7_of_ne (F := Ideal) m ρ c main_v5 (by decide)).trans u5
  have v6 := (W7_of_ne (F := Ideal) m ρ c main_v6 (by decide)).trans u6
  have v31 := (W7_of_ne (F := Ideal) m ρ c main_v31 (by decide)).trans u31
  have v6' := (W7_of_ne (F := Ideal) m ρ c main_arg6 (by decide)).trans u6'
  have v7 := (W7_of_ne (F := Ideal) m ρ c main_arg7 (by decide)).trans u7
  have v8 := (W7_of_ne (F := Ideal) m ρ c main_arg8 (by decide)).trans u8
  obtain ⟨e7, e8⟩ := hostOps3_keeps (W7 (F := Ideal) m ρ c)
  exact ⟨aggregate2 (W7 (F := Ideal) m ρ c) _ _ _ v31 v5 v6 v48, biasRow2 (W7 (F := Ideal) m ρ c) _ v6',
    e7.trans v7, e8.trans v8⟩

/-- THE RESULT: after the last region the result buffer holds the two-layer convolution and the linear head of the
    arguments. -/
theorem kernelResult :
    W11 (F := Ideal) m ρ c (Proc.devRef .tc main_v65)
      = head
          (biasRelu
            (agg (mm (biasRelu (agg (mm (m ((c : Thread nD τ).loc main_arg0)) (m ((c : Thread nD τ).loc main_arg3))) (m ((c : Thread nD τ).loc main_arg1)) (m ((c : Thread nD τ).loc main_arg2)))
                  (val_main_v46 (F := Ideal) (m ((c : Thread nD τ).loc main_arg4)))) (m ((c : Thread nD τ).loc main_arg5)))
              (m ((c : Thread nD τ).loc main_arg1)) (m ((c : Thread nD τ).loc main_arg2)))
            (val_main_v92 (F := Ideal) (m ((c : Thread nD τ).loc main_arg6))))
          (m ((c : Thread nD τ).loc main_arg7)) (val_main_v97 (F := Ideal) (m ((c : Thread nD τ).loc main_arg8))) := by
  obtain ⟨q61, q62, q7, q8⟩ := atRegion3 m ρ c
  -- region 3: bias and ReLU of the second aggregate
  have u63 : W9 (F := Ideal) m ρ c (Proc.devRef .tc main_v63) = biasRelu _ _ :=
    (W9_arr m ρ c 2).trans ((region3_value (V8 (F := Ideal) m ρ) c).trans (congrArg₂ biasRelu q61 q62))
  have u7 := (W9_of_ne (F := Ideal) m ρ c main_arg7 (by decide)).trans q7
  have u8 := (W9_of_ne (F := Ideal) m ρ c main_arg8 (by decide)).trans q8
  obtain ⟨f63, f7⟩ := hostOps4_keeps (W9 (F := Ideal) m ρ c)
  have w64 := biasScalar (W9 (F := Ideal) m ρ c) _ u8
  -- region 4: the final layer
  exact (W11_arr m ρ c 3).trans ((region4_value (V10 (F := Ideal) m ρ) c).trans
    (by rw [show V10 (F := Ideal) m ρ c main_v63 = _ from f63.trans u63, show V10 (F := Ideal) m ρ c main_arg7 = _ from f7.trans u7,
          show V10 (F := Ideal) m ρ c main_v64 = _ from w64]))

end Cert.KernelIdeal.Hand

end
-- ==== Proof.lean ====
/-
  The certificate of a two-layer graph convolution with a linear head, kernel against reference, over the extended reals.

  Both programs compute, from node features `x`, an edge list with weights, and the layers' weights and biases,

      out = head (biasRelu (agg (mm (biasRelu (agg (mm x W₁)) b₁) W₂)) b₂) W_fc b_fc,

  where `mm` is the feature transform (a matrix product), `agg` the sparse aggregation (gather the transformed rows at
  the edges' sources, scale by the symmetric degree normalisation, scatter-add into the targets), `biasRelu` adds a bias
  row and clamps at zero, and `head` is the last product plus a scalar.  The kernel program does the three products and
  the two bias-and-ReLU steps in five tiled regions of ten row blocks each, and the aggregation on the host between
  them; the reference does everything on the host.  On the extended reals a product accumulated block by block into
  zero is the same sum of products as the whole contraction, rounding the operands to a narrower float is the identity,
  and the aggregation is literally the same operations on the same arrays in both programs, so it is carried as one
  function and never opened.  No algebraic law beyond that is used, and the finiteness of the inputs is not needed.

  The frames of the two kernel programs are the generated ones; the reference's frame is its generated run.  The
  idealisation rewrote nothing, so `preserves` is trivial.  For the value claim, the kernel program's run names its
  result as the contents the fold of its segments gives it (`Hand.run_value`), which `Hand.kernelResult` reads as the
  formula above; the reference's run names its result as a term that `Hand.val_main_v99_spec` reads as the same formula.
-/
import proofs.«149499_j47115791237145_1_alg».proof.Defs
import proofs.«149499_j47115791237145_1_alg».proof.Proof.Gen.Kernel
import proofs.«149499_j47115791237145_1_alg».proof.Proof.Gen.Kernel.Skeleton
import proofs.«149499_j47115791237145_1_alg».proof.Proof.Gen.Kernel.Launch
import proofs.«149499_j47115791237145_1_alg».proof.Proof.Gen.Kernel.Points
import proofs.«149499_j47115791237145_1_alg».proof.Proof.Gen.Kernel.Frame
import proofs.«149499_j47115791237145_1_alg».proof.Proof.Gen.KernelIdeal
import proofs.«149499_j47115791237145_1_alg».proof.Proof.Gen.KernelIdeal.Skeleton
import proofs.«149499_j47115791237145_1_alg».proof.Proof.Gen.KernelIdeal.Launch
import proofs.«149499_j47115791237145_1_alg».proof.Proof.Gen.KernelIdeal.Points
import proofs.«149499_j47115791237145_1_alg».proof.Proof.Gen.KernelIdeal.Frame
import proofs.«149499_j47115791237145_1_alg».proof.Proof.Gen.ReferenceIdeal
import proofs.«149499_j47115791237145_1_alg».proof.Proof.Gen.ReferenceIdeal.Run
import proofs.«149499_j47115791237145_1_alg».proof.Proof.Gen.ReferenceIdeal.Read
import proofs.«149499_j47115791237145_1_alg».proof.Proof.Gen.Pre_finite_inputs
import proofs.«149499_j47115791237145_1_alg».proof.Proof.ValueRun
import proofs.«149499_j47115791237145_1_alg».proof.Proof.KValue
import proofs.«149499_j47115791237145_1_alg».proof.Proof.RefSpec
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: each is the same composition of
    the dense steps and the aggregation, applied to the same arrays. -/
theorem algebraic : Cert.algebraic_KernelIdeal_ReferenceIdeal := by
  intro m ρ m' ρ' _ hagree
  refine ⟨fun c => Cert.KernelIdeal.Gen.W11 (F := Ideal) m ρ c (Proc.devRef .tc Cert.KernelIdeal.main_v65),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v99_eq (F := Ideal) m' c).trans ?_
  refine (Cert.ReferenceIdeal.Hand.val_main_v99_spec _ _ _ _ _ _ _ _ _).trans ?_
  refine Eq.trans ?_ (Cert.KernelIdeal.Hand.kernelResult m ρ c).symm
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
